-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S32 .f32) (main_arg10 : FVec F S32x10 .f32) (main_arg11 : FVec F S10 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x10 .f32 := Host.absf main_arg10
  let main_cst_14 : FVec F S_ .f32 := constant S_ .f32 0x7F800000#32
  let main_v40 : FVec F S32x10 .f32 := broadcastInDim S32x10 ![] bcast_S_S32x10 main_cst_14
  let main_v41 : IVec S32x10 1 := cmpf .olt main_v39 main_v40
  let main_c_15 : IVec S_ 1 := constantI S_ 1 1#1
  let main_v42 : IVec S_ 1 := (fun x v => Host.reduce IntOp.andi x v reducesTo_S32x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x32 .f32) (main_arg9 : FVec F S32 .f32) (main_arg10 : FVec F S32x10 .f32) (main_arg11 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : FVec F S800000 .f32) (main_arg3 : IVec S50000 32) (main_arg4 : FVec F S128x64 .f32) (main_arg5 : FVec F S64 .f32) (main_arg6 : FVec F S64x64 .f32) (main_arg7 : FVec F S64 .f32) (main_arg8 : FVec F S64x32 .f32) (main_arg9 : FVec F S32 .f32) (main_arg10 : FVec F S32x10 .f32) (main_arg11 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S50000x1 : Shape := ⟨2, ![50000, 1]⟩
abbrev S512x64 : Shape := ⟨2, ![512, 64]⟩
abbrev S2000x1 : Shape := ⟨2, ![2000, 1]⟩
abbrev S2000x512 : Shape := ⟨2, ![2000, 512]⟩
abbrev S512 : Shape := ⟨1, ![512]⟩
abbrev S512x1 : Shape := ⟨2, ![512, 1]⟩
abbrev S1x32 : Shape := ⟨2, ![1, 32]⟩
abbrev S1x10 : Shape := ⟨2, ![1, 10]⟩
abbrev S512x10 : Shape := ⟨2, ![512, 10]⟩
abbrev S512x32 : Shape := ⟨2, ![512, 32]⟩

abbrev nBuf : Space → Nat
  | .hbm => 114
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x10, .f32⟩
  | .hbm, ⟨11, _⟩ => ⟨S10, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x64, .f32⟩
  | .hbm, ⟨55, _⟩ => ⟨S850000x1, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x64, .f32⟩
  | .hbm, ⟨65, _⟩ => ⟨S850000x64, .f32⟩
  | .hbm, ⟨66, _⟩ => ⟨S850000x64, .f32⟩
  | .hbm, ⟨67, _⟩ => ⟨S_, .f32⟩
  | .hbm, ⟨68, _⟩ => ⟨S50000x64, .f32⟩
  | .hbm, ⟨69, _⟩ => ⟨S850000x1, .i32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S850000x1, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x64, .f32⟩
  | .hbm, ⟨88, _⟩ => ⟨S850000x64, .f32⟩
  | .hbm, ⟨89, _⟩ => ⟨S850000x64, .f32⟩
  | .hbm, ⟨90, _⟩ => ⟨S_, .f32⟩
  | .hbm, ⟨91, _⟩ => ⟨S50000x64, .f32⟩
  | .hbm, ⟨92, _⟩ => ⟨S850000x1, .i32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | .hbm, ⟨97, _⟩ => ⟨S50000x1, .i32⟩
  | .hbm, ⟨98, _⟩ => ⟨S512x64, .f32⟩
  | .hbm, ⟨99, _⟩ => ⟨S_, .f32⟩
  | .hbm, ⟨100, _⟩ => ⟨S50000, .f32⟩
  | .hbm, ⟨101, _⟩ => ⟨S_, .f32⟩
  | .hbm, ⟨102, _⟩ => ⟨S512, .f32⟩
  | .hbm, ⟨103, _⟩ => ⟨S50000x1, .i32⟩
  | .hbm, ⟨104, _⟩ => ⟨S512, .f32⟩
  | .hbm, ⟨105, _⟩ => ⟨S_, .f32⟩
  | .hbm, ⟨106, _⟩ => ⟨S512, .f32⟩
  | .hbm, ⟨107, _⟩ => ⟨S512, .f32⟩
  | .hbm, ⟨108, _⟩ => ⟨S512x1, .f32⟩
  | .hbm, ⟨109, _⟩ => ⟨S512x64, .f32⟩
  | .hbm, ⟨110, _⟩ => ⟨S512x64, .f32⟩
  | .hbm, ⟨111, _⟩ => ⟨S1x32, .f32⟩
  | .hbm, ⟨112, _⟩ => ⟨S1x10, .f32⟩
  | .hbm, ⟨113, _⟩ => ⟨S512x10, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S2000x1, .i32⟩
  | .local _ .vmem, ⟨11, _⟩ => ⟨S2000x1, .i32⟩
  | .local _ .vmem, ⟨12, _⟩ => ⟨S2000x64, .f32⟩
  | .local _ .vmem, ⟨13, _⟩ => ⟨S2000x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S64x32, .f32⟩
  | .local _ .vmem, ⟨18, _⟩ => ⟨S1x32, .f32⟩
  | .local _ .vmem, ⟨19, _⟩ => ⟨S32x10, .f32⟩
  | .local _ .vmem, ⟨20, _⟩ => ⟨S1x10, .f32⟩
  | .local _ .vmem, ⟨21, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S50000_S50000x1 : S50000.ShapeCasts S50000x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  natLt_1_32 : 1 < 32
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S32_S1x32 : S32.ShapeCasts S1x32
  shapeCasts_S10_S1x10 : S10.ShapeCasts S1x10
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  dot_S2000x512_S2000x64_S512x64_0_0_1_1_n_n_wf : DotDims.WF S2000x512 S2000x64 S512x64 [0] [0] [1] [1] [] []
  scatter_S512_S50000x1_S50000_n_0_0_1_wf : ScatterDims.WF S512 S50000x1 S50000 [] [0] [0] 1
  dot_S512x64_S64x32_S512x32_1_0_0_1_n_n_wf : DotDims.WF S512x64 S64x32 S512x32 [1] [0] [0] [1] [] []
  dot_S512x32_S32x10_S512x10_1_0_0_1_n_n_wf : DotDims.WF S512x32 S32x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S50000x1.size a
  hwx2_0 : ∀ i : grid2.Coords, EltTy.bits .i32 = 32 ∨ (Rect.block (s := S50000x1) S2000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S512x64.size a
  hwx2_2 : ∀ i : grid2.Coords, EltTy.bits .f32 = 32 ∨ (Rect.block (s := S512x64) S512x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x10.size a ≤ S32x10.size a
  hwx3_3 : ∀ i : grid3.Coords, EltTy.bits .f32 = 32 ∨ (Rect.block (s := S32x10) S32x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x10.size a ≤ S512x10.size a
  hwx3_5 : ∀ i : grid3.Coords, EltTy.bits .f32 = 32 ∨ (Rect.block (s := S512x10) S512x10.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x10_S512x10_1_0_0_1_n_n : DotDims S512x32 S32x10 S512x10 where
  lhsContracting := [1]
  rhsContracting := [0]
  lhsNonContracting := [0]
  rhsNonContracting := [1]
  lhsBatch := []
  rhsBatch := []
  wf := dot_S512x32_S32x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S512x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v77) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S32x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S512x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x800000 : Shape := ⟨2, ![1, 800000]⟩
abbrev S50000x64 : Shape := ⟨2, ![50000, 64]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x32 : Shape := ⟨2, ![512, 32]⟩
abbrev S1x32 : Shape := ⟨2, ![1, 32]⟩
abbrev S512x10 : Shape := ⟨2, ![512, 10]⟩
abbrev S1x10 : Shape := ⟨2, ![1, 10]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x64, .f32⟩
  | 5 => ⟨S64, .f32⟩
  | 6 => ⟨S64x64, .f32⟩
  | 7 => ⟨S64, .f32⟩
  | 8 => ⟨S64x32, .f32⟩
  | 9 => ⟨S32, .f32⟩
  | 10 => ⟨S32x10, .f32⟩
  | 11 => ⟨S10, .f32⟩
  | 12 => ⟨S1x800000, .i32⟩
  | 13 => ⟨S800000, .i32⟩
  | 14 => ⟨S1x800000, .i32⟩
  | 15 => ⟨S800000, .i32⟩
  | 16 => ⟨S50000x64, .f32⟩
  | 17 => ⟨S50000, .i32⟩
  | 18 => ⟨S850000, .i32⟩
  | 19 => ⟨S850000, .i32⟩
  | 20 => ⟨S_, .f32⟩
  | 21 => ⟨S50000, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S850000x1, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x64, .f32⟩
  | 65 => ⟨S850000x64, .f32⟩
  | 66 => ⟨S850000x64, .f32⟩
  | 67 => ⟨S_, .f32⟩
  | 68 => ⟨S50000x64, .f32⟩
  | 69 => ⟨S850000x1, .i32⟩
  | 70 => ⟨S50000x64, .f32⟩
  | 71 => ⟨S1x64, .f32⟩
  | 72 => ⟨S50000x64, .f32⟩
  | 73 => ⟨S50000x64, .f32⟩
  | 74 => ⟨S_, .f32⟩
  | 75 => ⟨S50000x64, .f32⟩
  | 76 => ⟨S50000x64, .f32⟩
  | 77 => ⟨S50000x64, .f32⟩
  | 78 => ⟨S50000, .i32⟩
  | 79 => ⟨S850000, .i32⟩
  | 80 => ⟨S850000, .i32⟩
  | 81 => ⟨S_, .f32⟩
  | 82 => ⟨S50000, .f32⟩
  | 83 => ⟨S850000, .f32⟩
  | 84 => ⟨S_, .f32⟩
  | 85 => ⟨S50000, .f32⟩
  | 86 => ⟨S850000x1, .i32⟩
  | 87 => ⟨S50000, .f32⟩
  | 88 => ⟨S_, .f32⟩
  | 89 => ⟨S50000, .f32⟩
  | 90 => ⟨S50000, .i1⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S850000, .f32⟩
  | 116 => ⟨S850000x1, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x64, .f32⟩
  | 126 => ⟨S850000x64, .f32⟩
  | 127 => ⟨S850000x64, .f32⟩
  | _ => ⟨S50000x128, .f32⟩

abbrev hbmTy0_1 (i : Nat) : BufTy := match i % 128 with
  | 0 => ⟨S_, .f32⟩
  | 1 => ⟨S50000x64, .f32⟩
  | 2 => ⟨S850000x1, .i32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S512x64, .f32⟩
  | 9 => ⟨S50000x1, .i32⟩
  | 10 => ⟨S512x64, .f32⟩
  | 11 => ⟨S_, .f32⟩
  | 12 => ⟨S50000, .f32⟩
  | 13 => ⟨S_, .f32⟩
  | 14 => ⟨S512, .f32⟩
  | 15 => ⟨S50000x1, .i32⟩
  | 16 => ⟨S512, .f32⟩
  | 17 => ⟨S_, .f32⟩
  | 18 => ⟨S512, .f32⟩
  | 19 => ⟨S512, .f32⟩
  | 20 => ⟨S512x1, .f32⟩
  | 21 => ⟨S512x64, .f32⟩
  | 22 => ⟨S512x64, .f32⟩
  | 23 => ⟨S512x32, .f32⟩
  | 24 => ⟨S1x32, .f32⟩
  | 25 => ⟨S512x32, .f32⟩
  | 26 => ⟨S512x32, .f32⟩
  | 27 => ⟨S512x10, .f32⟩
  | 28 => ⟨S1x10, .f32⟩
  | 29 => ⟨S512x10, .f32⟩
  | 30 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v62 : Ref sig .tc := ⟨.hbm, 95, rfl⟩
abbrev main_c_13 : Ref sig .tc := ⟨.hbm, 96, rfl⟩
abbrev main_v63 : Ref sig .tc := ⟨.hbm, 97, rfl⟩
abbrev main_v64 : Ref sig .tc := ⟨.hbm, 98, rfl⟩
abbrev main_c_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_17 : Ref sig .tc := ⟨.hbm, 117, rfl⟩
abbrev main_v80 : Ref sig .tc := ⟨.hbm, 118, rfl⟩
abbrev main_v81 : Ref sig .tc := ⟨.hbm, 119, rfl⟩
abbrev main_c_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_20 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_21 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_23 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x32_S512x32_1_0_0_1_n_n_wf : DotDims.WF S512x64 S64x32 S512x32 [1] [0] [0] [1] [] []
  dot_S512x32_S32x10_S512x10_1_0_0_1_n_n_wf : DotDims.WF S512x32 S32x10 S512x10 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x10_S512x10_1_0_0_1_n_n : DotDims S512x32 S32x10 S512x10 where
  lhsContracting := [1]
  rhsContracting := [0]
  lhsNonContracting := [0]
  rhsNonContracting := [1]
  lhsBatch := []
  rhsBatch := []
  wf := dot_S512x32_S32x10_S512x10_1_0_0_1_n_n_wf

class Facts : Prop extends Facts₀ where

variable [Facts]
-- ==== Proof.KB_Reg0.lean ====
/-
  Region 0: the first dense layer's product x · W1, row tile by row tile. Each of the 25 grid points is handed
  a tile of 2000 rows of x and the whole of W1, and leaves in its output tile the matrix product of the two
  (into a zero accumulator). Stated at any contents V of the core's buffers at the region's entry: the tile a
  point reads, what the body leaves in the output tile as a function of what it read, the body's triple, and
  the pipeline's proof data with its obligation at every point.
-/
import proofs.«409256_j4844723109935_1_alg».proof.Proof.Gen.Kernel.Launch
import proofs.«409256_j4844723109935_1_alg».proof.Proof.Gen.Kernel.Skeleton
import proofs.«409256_j4844723109935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of x sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, sits in its staging buffer at every point (its tile index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_o : Rect S2000x64 := Rect.unit (s := S2000x64) ![0, 0] S2000x64.size inb_S2000x64_S2000x64_0_0

/-- What the body leaves in the output tile: one store of the product of the two tiles it loaded. -/
def out0_2 (x0 : Vec F S2000x128 .f32) (x1 : Vec F S128x64 .f32) : Vec F S2000x64 .f32 :=
  View.canon [⟨r0_o, k0_pay1 (View.ld x0 r0_x) (View.ld x1 r0_w)⟩]

theorem cover0_2 (p0 : Vec F S2000x64 .f32) (y : S2000x64.Idx) :
    ∃ pc ∈ ([⟨r0_o, p0⟩] : List (View.Piece (Elt F) S2000x64 .f32)), y ∈ pc.1.set :=
  View.cover_of_tiled [⟨r0_o, p0⟩] S2000x64.size (by rfl) y

set_option maxHeartbeats 1000000 in
/-- The body on whole staging buffers, the inputs' at contents x0 and x1 and the output's at anything, runs to the
    continuation with the inputs' as they were and the output's at the product. -/
theorem sound_kernel0 (c : Dev nD) (E : Set ℕ) (i : grid0.Coords) (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body at point t each
    input's buffer still at its tile and the output's at the product of the two tiles; nothing owed, full shares,
    the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB_Reg1.lean ====
/-
  Region 1: the second dense layer's product h · W2, row tile by row tile, h the rectified first layer. Each of the
  25 grid points is handed a tile of 2000 rows of h and the whole of W2, and leaves in its output tile the matrix
  product of the two (into a zero accumulator). Stated at any contents V of the core's buffers at the region's
  entry: the tile a point reads, what the body leaves in the output tile as a function of what it read, the
  body's triple, and the pipeline's proof data with its obligation at every point.
-/
import proofs.«409256_j4844723109935_1_alg».proof.Proof.Gen.Kernel.Launch
import proofs.«409256_j4844723109935_1_alg».proof.Proof.Gen.Kernel.Skeleton
import proofs.«409256_j4844723109935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of h sits in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix, fetched once, sits in its staging buffer at every point (its tile index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S2000x64 := Rect.unit (s := S2000x64) ![0, 0] S2000x64.size inb_S2000x64_S2000x64_0_0
abbrev r1_w : Rect S64x64 := Rect.unit (s := S64x64) ![0, 0] S64x64.size inb_S64x64_S64x64_0_0
abbrev r1_o : Rect S2000x64 := Rect.unit (s := S2000x64) ![0, 0] S2000x64.size inb_S2000x64_S2000x64_0_0

/-- What the body leaves in the output tile: one store of the product of the two tiles it loaded. -/
def out1_2 (x0 : Vec F S2000x64 .f32) (x1 : Vec F S64x64 .f32) : Vec F S2000x64 .f32 :=
  View.canon [⟨r1_o, k1_pay1 (View.ld x0 r1_x) (View.ld x1 r1_w)⟩]

theorem cover1_2 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

set_option maxHeartbeats 1000000 in
/-- The body on whole staging buffers, the inputs' at contents x0 and x1 and the output's at anything, runs to the
    continuation with the inputs' as they were and the output's at the product. -/
theorem sound_kernel1 (c : Dev nD) (E : Set ℕ) (i : grid1.Coords) (arg1 : Memref sig .tc .vmem S2000x64 .f32) (harg1 : arg1.IsWhole) (arg2 : Memref sig .tc .vmem S64x64 .f32) (harg2 : arg2.IsWhole)
    (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c: the arrays as the region finds them; after the body at point t each
    input's buffer still at its tile and the output's at the product of the two tiles; nothing owed, full shares,
    the invariant the scoped rest and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB_Reg2.lean ====
/-
  Region 2: the pooling. The 25 grid points walk the 50000 nodes in tiles of 2000 rows; at each point the body is
  handed the tile of graph ids (one id per node) and the tile of node features, turns the ids into a one-hot matrix
  against the 512 graph slots, and adds (one-hot)ᵀ · features into a 512 × 64 running sum kept in a scratch buffer
  that lives across the points. At the first point the scratch is first set to zero; at the last point the finished
  sum is copied into the output tile, which is written back there and nowhere else. Stated at any contents V of the
  core's buffers at the region's entry: the tile a point reads, the running sum after each point by recursion on the
  point, the body's triple in each of the three control cases, and the pipeline's proof data, whose invariant
  carries the scratch at the running sum, with its obligation at every point.
-/
import proofs.«409256_j4844723109935_1_alg».proof.Proof.Gen.Kernel.Launch
import proofs.«409256_j4844723109935_1_alg».proof.Proof.Gen.Kernel.Skeleton
import proofs.«409256_j4844723109935_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional of the body (the reset of the scratch), as the body computes it from the grid coordinate. -/
abbrev cond2_0 (i : grid2.Coords) : Prop := (Scalar.cmpi .ne (Scalar.extui (Scalar.cmpi .eq (BitVec.ofNat 32 (i 0).val) 0#32)) 0#32) = 1#1
/-- The second conditional (the copy of the scratch into the output tile). -/
abbrev cond2_1 (i : grid2.Coords) : Prop := k2_cond2 i = 1#1

/-- The reset happens at the first point only. -/
theorem hcond2_0 : ∀ t : Fin cfg2.N, cond2_0 (grid2.coords t) ↔ t.val = 0 :=
  (by decide +kernel : ∀ t : Fin grid2.N, cond2_0 (grid2.coords t) ↔ t.val = 0)
/-- The copy out happens at the last point only. -/
theorem hcond2_1 : ∀ t : Fin cfg2.N, cond2_1 (grid2.coords t) ↔ t.val = 24 :=
  (by decide +kernel : ∀ t : Fin grid2.N, cond2_1 (grid2.coords t) ↔ t.val = 24)

theorem zero_off2 : (![0, 0] : Fin 2 → ℕ) = fun _ => 0 := by
  funext a; fin_cases a <;> rfl

/-- One store through the whole rectangle covers the whole scratch. -/
theorem cover2_one (p0 : Vec F S512x64 .f32) (L : List (View.Piece (Elt F) S512x64 .f32)) (y : S512x64.Idx) :
    ∃ pc ∈ ((⟨Rect.unit (s := S512x64) ![0, 0] S512x64.size inb_S512x64_S512x64_0_0, p0⟩ : View.Piece (Elt F) S512x64 .f32) :: L), y ∈ pc.1.set :=
  ⟨_, List.mem_cons_self, View.mem_set_unit_zero zero_off2 inb_S512x64_S512x64_0_0 y⟩

set_option maxHeartbeats 1000000 in
/-- A middle point: neither conditional taken. The scratch at xs is left at the update of xs by the two tiles; the
    output tile is handed back as it was. -/
theorem sound_kernel2_B (c : Dev nD) (E : Set ℕ) (i : grid2.Coords)
    (arg1 : Memref sig .tc .vmem S2000x1 .i32) (harg1 : arg1.IsWhole) (arg2 : Memref sig .tc .vmem S2000x64 .f32) (harg2 : arg2.IsWhole)
    (arg3 : Memref sig .tc .vmem S512x64 .f32) (harg3 : arg3.IsWhole) (arg4 : Memref sig .tc .vmem S512x64 .f32) (harg4 : arg4.IsWhole)
    (hc0 : ¬cond2_0 i) (hc1 : ¬cond2_1 i)
    (x0 : Vec F S2000x1 .i32) (x1 : Vec F S2000x64 .f32) (xi : Vec F S512x64 .f32) (xs : Vec F S512x64 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x0 x1 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover2_one _ _), View.canon_unit_zero zero_off2]
  simp only [View.readAt_eq_ld, View.ld_unit_zero (S := S2000x1) zero_off2, View.ld_unit_zero (S := S2000x64) zero_off2,
    View.ld_unit_zero (S := S512x64) zero_off2]

set_option maxHeartbeats 1000000 in
/-- The first point: the reset is taken, the copy out is not. The scratch at anything is left at the update of the
    zero splat by the two tiles; the output tile is handed back as it was. -/
theorem sound_kernel2_A (c : Dev nD) (E : Set ℕ) (i : grid2.Coords)
    (arg1 : Memref sig .tc .vmem S2000x1 .i32) (harg1 : arg1.IsWhole) (arg2 : Memref sig .tc .vmem S2000x64 .f32) (harg2 : arg2.IsWhole)
    (arg3 : Memref sig .tc .vmem S512x64 .f32) (harg3 : arg3.IsWhole) (arg4 : Memref sig .tc .vmem S512x64 .f32) (harg4 : arg4.IsWhole)
    (hc0 : cond2_0 i) (hc1 : ¬cond2_1 i)
    (x0 : Vec F S2000x1 .i32) (x1 : Vec F S2000x64 .f32) (xi : Vec F S512x64 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x0 x1 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (cover2_one _ _), View.canon_cons_unit_zero zero_off2, View.readCov_unit_zero _ zero_off2]
  simp only [View.readAt_eq_ld, View.ld_unit_zero (S := S2000x1) zero_off2, View.ld_unit_zero (S := S2000x64) zero_off2,
    View.ld_unit_zero (S := S512x64) zero_off2]

set_option maxHeartbeats 1000000 in
/-- The last point: the reset is not taken, the copy out is. The scratch at xs is left at the update of xs by the two
    tiles, and the output tile, at anything, is left at the same. -/
theorem sound_kernel2_C (c : Dev nD) (E : Set ℕ) (i : grid2.Coords)
    (arg1 : Memref sig .tc .vmem S2000x1 .i32) (harg1 : arg1.IsWhole) (arg2 : Memref sig .tc .vmem S2000x64 .f32) (harg2 : arg2.IsWhole)
    (arg3 : Memref sig .tc .vmem S512x64 .f32) (harg3 : arg3.IsWhole) (arg4 : Memref sig .tc .vmem S512x64 .f32) (harg4 : arg4.IsWhole)
    (hc0 : ¬cond2_0 i) (hc1 : cond2_1 i)
    (x0 : Vec F S2000x1 .i32) (x1 : Vec F S2000x64 .f32) (xs : Vec F S512x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k2_pay2 x0 x1 xs)
            ∗ owns (c : Thread nD τ) arg4 fullShare (k2_pay2 x0 x1 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover2_one _ _), View.canon_unit_zero zero_off2, View.readCov_unit_zero _ zero_off2]
    simp only [View.readAt_eq_ld, View.ld_unit_zero (S := S2000x1) zero_off2, View.ld_unit_zero (S := S2000x64) zero_off2,
    View.ld_unit_zero (S := S512x64) zero_off2]
  iexists _; isplitr
  swap; · iexact HS
  ipureintro
  sl_unfold_words
  rw [View.read_writes_eq_canon _ _ _ (cover2_one _ _), View.canon_unit_zero zero_off2]
  simp only [View.readAt_eq_ld, View.ld_unit_zero (S := S2000x1) zero_off2, View.ld_unit_zero (S := S2000x64) zero_off2,
    View.ld_unit_zero (S := S512x64) zero_off2]

/-- Window w's tile at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile of graph ids sits in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The tile of node features sits in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- What the scratch holds after point n: the running sum. After the first point, the update of the zero splat by
    that point's two tiles; after a later point, the update of what the point before left by this point's tiles. -/
def acc2 (c : Dev nD) : (n : ℕ) → n < cfg2.N → Vec F S512x64 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem acc2_zero (c : Dev nD) (h : 0 < cfg2.N) :
    acc2 V c 0 h = k2_pay2 (iblk2 V c 0 ⟨0, h⟩) (iblk2 V c 1 ⟨0, h⟩) (k2_pay1 (F := F)) := rfl

theorem acc2_succ (c : Dev nD) (n : ℕ) (h : n + 1 < cfg2.N) :
    acc2 V c (n + 1) h = k2_pay2 (iblk2 V c 0 ⟨n + 1, h⟩) (iblk2 V c 1 ⟨n + 1, h⟩) (acc2 V c n (Nat.lt_of_succ_lt h)) := rfl

/-- The running sum at the first point, the point given as an element of the grid. -/
theorem acc2_first (c : Dev nD) (t : Fin cfg2.N) (h0 : t.val = 0) :
    acc2 V c t.val t.isLt = k2_pay2 (iblk2 V c 0 t) (iblk2 V c 1 t) (k2_pay1 (F := F)) := by
  obtain ⟨n, hn⟩ := t
  cases n with
  | zero => rfl
  | succ n => exact absurd h0 (Nat.succ_ne_zero n)

/-- The running sum at a later point, over what the point before left. -/
theorem acc2_later (c : Dev nD) (t : Fin cfg2.N) (h0 : t.val ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h0
  | succ n => rfl

/-! ## Where the output window is idle -/

/-- The two input windows are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Where the copy out is not taken the output window is idle, -/
theorem idleAt2_2 : ∀ t : Fin cfg2.N, ¬cond2_1 (grid2.coords t) → cfg2.idle 2 (grid2.coords t) = true := by decide +kernel
/-- and its tile is not written back; -/
theorem noFlush2_2 : ∀ t : Fin cfg2.N, ¬cond2_1 (grid2.coords t) → (cfg2.win 2).flush t = false := by decide +kernel
/-- where it is taken the window is live. -/
theorem liveAt2_2 : ∀ t : Fin cfg2.N, cond2_1 (grid2.coords t) → cfg2.idle 2 (grid2.coords t) = false := by decide +kernel

/-! ## The invariant -/

/-- The scratch the body carries between points, as the pipeline passes it. -/
abbrev scM2 : Memref sig .tc .vmem S512x64 .f32 := Memref.whole cc2_scratch0

/-- The core's scoped buffers that are neither a staging buffer of this region nor its scratch, at some contents each. -/
abbrev rest2 (c : Dev nD) : sProp 𝕄 :=
  Pipeline.scopedRestBut (Ix := Unit) (Name := ℕ) (U := UR sig nD τ) (Lvl := ℕ) (Val := Elt F) spec2 c [cc2_scratch0]

/-- What the launch hands the region, with the scratch taken out of the scoped rest as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list spec2 c [cc2_scratch0] (by decide) (by decide)]
  simp only [scM2, owns_whole, bigSepL_singleton]; try rfl

/-- The invariant before position n: before the first point what the launch hands over (the scratch at anything);
    afterwards the same with the scratch at the running sum the point before left. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ rest2 (F := F) c) ∗ (∃ r, prngReg c r)) := by
  cases n with
  | zero => exact absurd rfl hz
  | succ n => rfl

/-! ## The proof data -/

/-- The proof data of pipeline 2 on core c: the arrays as the region finds them; after the body at point t each
    input's buffer still at its tile and the output's at the running sum (which the body puts there at the last
    point only: elsewhere the window is idle and this is not consulted); nothing owed, full shares; the invariant
    carrying the scratch at the running sum. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- At the last point the output tile is left at the finished running sum. -/
theorem after2_2_last (c : Dev nD) (t : Fin cfg2.N) (ht : t.val = 24) : (dat2 V c).after 2 t = acc2 V c t.val t.isLt :=
  after2_2 V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point. The inputs' buffers hold their tiles; the position decides the case. At the first point the
    invariant hands over the scratch at anything and takes it back at the first running sum; at a later point it hands
    it over at what the point before left and takes it back at this point's running sum. Except at the last point the
    output's buffer goes back as it came; at the last it comes back at the finished sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 25 := lt_of_lt_of_eq t.isLt (show cfg2.N = 25 from N_2)
  by_cases h0 : t.val = 0
  · have h1 : ¬t.val = 24 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [acc2_first V c t h0, PhiS2_castSucc V c t, PhiS2_zero V c _ _ h0, PhiA2_eq]
    iintro ⟨⟨⟨HS, HR⟩, Hg⟩, Ho, ⟨%d0, H0⟩, ⟨%d1, H1⟩, ⟨%d2, H2⟩⟩
    iapply (sound_kernel2_A c Set.univ (grid2.coords t) _ _ _ _ _ _ _ _ hc0 hc1 (iblk2 V c 0 t) (iblk2 V c 1 t) ((dat2 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists d2; iexact H2
  · rw [acc2_later V c t h0, PhiS2_castSucc V c t, PhiS2_pos V c _ _ h0]
    have hc0 : ¬cond2_0 (grid2.coords t) := fun h => h0 ((hcond2_0 t).mp h)
    by_cases h1 : t.val = 24
    · have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2, acc2_later V c t h0]
      iintro ⟨⟨⟨HS, HR⟩, Hg⟩, Ho, ⟨%d0, H0⟩, ⟨%d1, H1⟩, ⟨%d2, H2⟩⟩
      iapply (sound_kernel2_C c Set.univ (grid2.coords t) _ _ _ _ _ _ _ _ hc0 hc1 (iblk2 V c 0 t) (iblk2 V c 1 t)
        (acc2 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS, HR⟩, Hg⟩, Ho, ⟨%d0, H0⟩, ⟨%d1, H1⟩, ⟨%d2, H2⟩⟩
      iapply (sound_kernel2_B c Set.univ (grid2.coords t) _ _ _ _ _ _ _ _ hc0 hc1 (iblk2 V c 0 t) (iblk2 V c 1 t) ((dat2 V c).before 2 t d2)
        (acc2 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists d2; iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After any point the invariant gives back what the launch handed over: the scratch's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS, HR⟩, Hg⟩
  isplitr [Hg]
  · isplitl [HS]
    · iexists _; iexact HS
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 25 := N_2; omega)

end Cert.Kernel.Hand

end
-- ==== Proof.KB_Reg3.lean ====
/-
  Region 3: the two-layer head on the pooled means, in one grid point: (p · LW1 + Lb1) · LW2 + Lb2, each product
  into a zero accumulator, each bias a row broadcast down the 512 rows. Stated at any contents V of the core's
  buffers at the region's entry: the (whole-array) tile each window reads, what the body leaves in the output
  as a function of what it read, the body's triple, and the pipeline's proof data with its obligation.
-/
import proofs.«409256_j4844723109935_1_alg».proof.Proof.Gen.Kernel.Launch
import proofs.«409256_j4844723109935_1_alg».proof.Proof.Gen.Kernel.Skeleton
import proofs.«409256_j4844723109935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the pooled means) sits in its staging buffer at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the first head weight) sits in its staging buffer at the point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the first head bias as a row) sits in its staging buffer at the point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the second head weight) sits in its staging buffer at the point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (the second head bias as a row) sits in its staging buffer at the point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S512x64 := Rect.unit (s := S512x64) ![0, 0] S512x64.size inb_S512x64_S512x64_0_0
abbrev r3_1 : Rect S64x32 := Rect.unit (s := S64x32) ![0, 0] S64x32.size inb_S64x32_S64x32_0_0
abbrev r3_2 : Rect S1x32 := Rect.unit (s := S1x32) ![0, 0] S1x32.size inb_S1x32_S1x32_0_0
abbrev r3_3 : Rect S32x10 := Rect.unit (s := S32x10) ![0, 0] S32x10.size inb_S32x10_S32x10_0_0
abbrev r3_4 : Rect S1x10 := Rect.unit (s := S1x10) ![0, 0] S1x10.size inb_S1x10_S1x10_0_0
abbrev r3_o : Rect S512x10 := Rect.unit (s := S512x10) ![0, 0] S512x10.size inb_S512x10_S512x10_0_0

/-- What the body leaves in the output: one store of the head applied to the five tiles it loaded. -/
def out3_5 (x0 : Vec F S512x64 .f32) (x1 : Vec F S64x32 .f32) (x2 : Vec F S1x32 .f32) (x3 : Vec F S32x10 .f32) (x4 : Vec F S1x10 .f32) : Vec F S512x10 .f32 :=
  View.canon [⟨r3_o, k3_pay1 (View.ld x0 r3_0) (View.ld x1 r3_1) (View.ld x2 r3_2) (View.ld x3 r3_3) (View.ld x4 r3_4)⟩]

theorem cover3_5 (p0 : Vec F S512x10 .f32) (y : S512x10.Idx) :
    ∃ pc ∈ ([⟨r3_o, p0⟩] : List (View.Piece (Elt F) S512x10 .f32)), y ∈ pc.1.set :=
  View.cover_of_tiled [⟨r3_o, p0⟩] S512x10.size (by rfl) y

set_option maxHeartbeats 1000000 in
/-- The body on whole staging buffers, the inputs' at their contents and the output's at anything, runs to the
    continuation with the inputs' as they were and the output's at the head of them. -/
theorem sound_kernel3 (c : Dev nD) (E : Set ℕ) (i : grid3.Coords) (arg1 : Memref sig .tc .vmem S512x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S32x10 .f32) (harg4 : arg4.IsWhole)
    (arg5 : Memref sig .tc .vmem S1x10 .f32) (harg5 : arg5.IsWhole) (arg6 : Memref sig .tc .vmem S512x10 .f32) (harg6 : arg6.IsWhole)
    (x0 : Vec F S512x64 .f32) (x1 : Vec F S64x32 .f32) (x2 : Vec F S1x32 .f32) (x3 : Vec F S32x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__head_kernel i arg1 harg1 arg2 harg2 arg3 harg3 arg4 harg4 arg5 harg5 arg6 harg6) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core c: the arrays as the region finds them; after the body each input's
    buffer still at its tile and the output's at the head of the five tiles; nothing owed, full shares, the
    invariant the scoped rest and the generator register. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB_Chain.lean ====
/-
  What the core's buffers hold between the items of the program: a fold from the launch memory through the host
  stretches (each stretch's operations applied in order) and the four kernel regions (a region's arrays at what
  its write-backs leave, every other buffer as the region found it), and, step by step, that a buffer no item
  writes keeps its contents. Every argument array is such a buffer, so it ends as launched.
-/
import proofs.«409256_j4844723109935_1_alg».proof.Proof.Gen.Kernel.Regions
import proofs.«409256_j4844723109935_1_alg».proof.Proof.KB_Reg0
import proofs.«409256_j4844723109935_1_alg».proof.Proof.KB_Reg1
import proofs.«409256_j4844723109935_1_alg».proof.Proof.KB_Reg2
import proofs.«409256_j4844723109935_1_alg».proof.Proof.KB_Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffers at launch. -/
abbrev W0 : Dev nD → Valuation τ sig (Elt F) := fun c b => m (c, b)
/-- After the first host stretch (the edge lists with self loops, the degrees). -/
abbrev W1 : Dev nD → Valuation τ sig (Elt F) := fun c => StableHlo.after hostOps0 (W0 m c)
/-- After the inverse square roots of the positive degrees. -/
abbrev W2 : Dev nD → Valuation τ sig (Elt F) := fun c => StableHlo.after hostOps0_1 (W1 m c)
/-- After the edge normalisation: region 0's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- After the first message passing and bias. -/
abbrev W5 : Dev nD → Valuation τ sig (Elt F) := fun c => StableHlo.after hostOps1 (W4 m c)
/-- After the rectifier: region 1's entry. -/
abbrev W6 : Dev nD → Valuation τ sig (Elt F) := fun c => StableHlo.after hostOps1_1 (W5 m c)
abbrev V6 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (V6 m) c).arrAt w cfg1.N
abbrev V7 : (c : Dev nD) → (b : Ref sig .tc) → Buf (Elt F) ((c : Thread nD τ).loc b) := fun c b => W7 m c b
/-- After the second message passing and bias: region 2's entry. -/
abbrev W8 : Dev nD → Valuation τ sig (Elt F) := fun c => StableHlo.after hostOps2 (W7 m c)
abbrev V8 : (c : Dev nD) → (b : Ref sig .tc) → Buf (Elt F) ((c : Thread nD τ).loc b) := fun c b => W8 m c b
/-- At region 2's exit. -/
def W9 (c : Dev nD) : Valuation τ sig (Elt F) :=
  Pipeline.withArrays spec2 c (W8 m c) fun w => (dat2 (V8 m) c).arrAt w cfg2.N
abbrev V9 : (c : Dev nD) → (b : Ref sig .tc) → Buf (Elt F) ((c : Thread nD τ).loc b) := fun c b => W9 m c b
/-- After the graph sizes and the division: region 3's entry. -/
abbrev W10 : Dev nD → Valuation τ sig (Elt F) := fun c => StableHlo.after hostOps3 (W9 m c)
abbrev V10 : (c : Dev nD) → (b : Ref sig .tc) → Buf (Elt F) ((c : Thread nD τ).loc b) := fun c b => W10 m c b
/-- At region 3's exit: the end. -/
def W11 (c : Dev nD) : Valuation τ sig (Elt F) :=
  Pipeline.withArrays spec3 c (W10 m c) fun w => (dat3 (V10 m) c).arrAt w cfg3.N
abbrev V11 : (c : Dev nD) → (b : Ref sig .tc) → Buf (Elt F) ((c : Thread nD τ).loc b) := fun c b => W11 m c b

/-! ## A region's exit: its arrays at what the pipeline leaves, the rest as entered -/

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)

theorem W11_arr (c : Dev nD) (w : Fin cfg3.W) :
    W11 m c (Proc.devRef .tc (Pipeline.arrRef spec3 w)) = (dat3 (V10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
theorem hF3 (c : Dev nD) (w : Fin cfg3.W) : (dat3 (V10 m) c).arrAt w cfg3.N = V11 m c (Pipeline.arrRef spec3 w) :=
  (W11_arr m c w).symm
theorem hrest3 (c : Dev nD) : ∀ b, b ∉ Finset.univ.image (Pipeline.arrRef spec3) → V11 m c b = V10 m c b :=
  fun b hb => W11_of_ne m c b fun w e => hb (Finset.mem_image.mpr ⟨w, Finset.mem_univ _, e⟩)

/-! ## A region changes only its output array -/

/-- Region 0 changes only the first product's array. -/
theorem W4_keep (c : Dev nD) (b : Ref sig .tc) (hb : b ≠ main_v32) : W4 m c (Proc.devRef .tc b) = W3 m c (Proc.devRef .tc b) := by
  by_cases h0 : b = main_arg0
  · subst h0; exact (W4_arr m c 0).trans (((dat0 (V3 m) c).arrAt_in 0 rfl _).trans (A_eq0 (V3 m) c 0))
  by_cases h1 : b = main_arg4
  · subst h1; exact (W4_arr m c 1).trans (((dat0 (V3 m) c).arrAt_in 1 rfl _).trans (A_eq0 (V3 m) c 1))
  refine W4_of_ne m c b fun w => ?_
  match w with
  | ⟨0, _⟩ => exact fun e => h0 e.symm
  | ⟨1, _⟩ => exact fun e => h1 e.symm
  | ⟨2, _⟩ => exact fun e => hb e.symm

/-- Region 1 changes only the second product's array. -/
theorem W7_keep (c : Dev nD) (b : Ref sig .tc) (hb : b ≠ main_v50) : W7 m c (Proc.devRef .tc b) = W6 m c (Proc.devRef .tc b) := by
  by_cases h0 : b = main_v49
  · subst h0; exact (W7_arr m c 0).trans (((dat1 (V6 m) c).arrAt_in 0 rfl _).trans (A_eq1 (V6 m) c 0))
  by_cases h1 : b = main_arg6
  · subst h1; exact (W7_arr m c 1).trans (((dat1 (V6 m) c).arrAt_in 1 rfl _).trans (A_eq1 (V6 m) c 1))
  refine W7_of_ne m c b fun w => ?_
  match w with
  | ⟨0, _⟩ => exact fun e => h0 e.symm
  | ⟨1, _⟩ => exact fun e => h1 e.symm
  | ⟨2, _⟩ => exact fun e => hb e.symm

/-- Region 2 changes only the pooled sums' array. -/
theorem W9_keep (c : Dev nD) (b : Ref sig .tc) (hb : b ≠ main_v68) : W9 m c (Proc.devRef .tc b) = W8 m c (Proc.devRef .tc b) := by
  by_cases h0 : b = main_v67
  · subst h0; exact (W9_arr m c 0).trans (((dat2 (V8 m) c).arrAt_in 0 rfl _).trans (A_eq2 (V8 m) c 0))
  by_cases h1 : b = main_v66
  · subst h1; exact (W9_arr m c 1).trans (((dat2 (V8 m) c).arrAt_in 1 rfl _).trans (A_eq2 (V8 m) c 1))
  refine W9_of_ne m c b fun w => ?_
  match w with
  | ⟨0, _⟩ => exact fun e => h0 e.symm
  | ⟨1, _⟩ => exact fun e => h1 e.symm
  | ⟨2, _⟩ => exact fun e => hb e.symm

/-- Region 3 changes only the result array. -/
theorem W11_keep (c : Dev nD) (b : Ref sig .tc) (hb : b ≠ main_v80) : W11 m c (Proc.devRef .tc b) = W10 m c (Proc.devRef .tc b) := by
  by_cases h0 : b = main_v77
  · subst h0; exact (W11_arr m c 0).trans (((dat3 (V10 m) c).arrAt_in 0 rfl _).trans (A_eq3 (V10 m) c 0))
  by_cases h1 : b = main_arg8
  · subst h1; exact (W11_arr m c 1).trans (((dat3 (V10 m) c).arrAt_in 1 rfl _).trans (A_eq3 (V10 m) c 1))
  by_cases h2 : b = main_v78
  · subst h2; exact (W11_arr m c 2).trans (((dat3 (V10 m) c).arrAt_in 2 rfl _).trans (A_eq3 (V10 m) c 2))
  by_cases h3 : b = main_arg10
  · subst h3; exact (W11_arr m c 3).trans (((dat3 (V10 m) c).arrAt_in 3 rfl _).trans (A_eq3 (V10 m) c 3))
  by_cases h4 : b = main_v79
  · subst h4; exact (W11_arr m c 4).trans (((dat3 (V10 m) c).arrAt_in 4 rfl _).trans (A_eq3 (V10 m) c 4))
  refine W11_of_ne m c b fun w => ?_
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => hb e.symm

/-! ## A host stretch changes only the buffers its operations write -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W6_of (c : Dev nD) (r : Ref sig .tc) (h : r ∉ hostOps1_1_W) : W6 m c (Proc.devRef .tc r) = W5 m c (Proc.devRef .tc r) :=
  StableHlo.after_of_writes_sub hostOps1_1 _ hostOps1_1_writes h
theorem W8_of (c : Dev nD) (r : Ref sig .tc) (h : r ∉ hostOps2_W) : W8 m c (Proc.devRef .tc r) = W7 m c (Proc.devRef .tc r) :=
  StableHlo.after_of_writes_sub hostOps2 _ hostOps2_writes h
theorem W10_of (c : Dev nD) (r : Ref sig .tc) (h : r ∉ hostOps3_W) : W10 m c (Proc.devRef .tc r) = W9 m c (Proc.devRef .tc r) :=
  StableHlo.after_of_writes_sub hostOps3 _ hostOps3_writes h

/-- A buffer that no host stretch writes and that is no region's output ends as launched. -/
theorem W11_untouched (c : Dev nD) (r : Ref sig .tc)
    (h0 : r ∉ hostOps0_W) (h1 : r ∉ hostOps0_1_W) (h2 : r ∉ hostOps0_2_W) (h3 : r ≠ main_v32)
    (h4 : r ∉ hostOps1_W) (h5 : r ∉ hostOps1_1_W) (h6 : r ≠ main_v50) (h7 : r ∉ hostOps2_W) (h8 : r ≠ main_v68)
    (h9 : r ∉ hostOps3_W) (h10 : r ≠ main_v80) :
    W11 m c (Proc.devRef .tc r) = m ((c : Thread nD τ).loc r) :=
  (W11_keep m c r h10).trans <| (W10_of m c r h9).trans <| (W9_keep m c r h8).trans <| (W8_of m c r h7).trans <|
    (W7_keep m c r h6).trans <| (W6_of m c r h5).trans <| (W5_of m c r h4).trans <| (W4_keep m c r h3).trans <|
    (W3_of m c r h2).trans <| (W2_of m c r h1).trans <| (W1_of m c r h0).trans rfl

end Cert.Kernel.Hand

end
-- ==== Proof.KB_Run.lean ====
/-
  The run of the whole program: its items — seven stretches of host operations and four kernel regions — as
  segments over the thread state "every unscoped buffer at the contents the fold gives, the generator register at
  some state, nothing owed", each region a record around its pipeline's proof data and body obligation, and the
  launch: every weakly fair execution terminates, nothing faulting, and the final memory holds every unscoped
  buffer at the fold's last contents.
-/
import proofs.«409256_j4844723109935_1_alg».proof.Proof.KB_Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V6 m) c
  | ⟨2, _⟩ => fun c => dat2 (V8 m) c
  | ⟨3, _⟩ => fun c => dat3 (V10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W11 m c) ∗ ∃ r, prngReg c r)

set_option backward.isDefEq.respectTransparency.types false in
/-- Region 0 over the thread state: entered with every unscoped buffer at the contents before it, left with them at
    the contents after it. Its arrays are split out of the unscoped buffers at entry and put back at their final
    contents at exit; the generator register goes into the invariant and comes back; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers at entry and put back at their final
    contents at exit; the generator register goes into the invariant and comes back; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it. Its arrays are split out of the unscoped buffers at entry and put back at their final
    contents at exit; the generator register goes into the invariant and comes back; nothing is owed; the kernel
    has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?h : _ ⊢ (Pipeline.ΦA spec2 c : sProp 𝕄)).trans (hin2 (V8 m) c)
    unfold Pipeline.ΦA
    iintro ⟨Hp, -, Hr⟩
    isplitl [Hr]; · iexact Hr
    iexact Hp
  hout c := by
    rw [Pipeline.ownSems0_none]
    refine (hout2 (V8 m) c).trans (?hb : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at
    the contents after it. Its arrays are split out of the unscoped buffers at entry and put back at their final
    contents at exit; the generator register goes into the invariant and comes back; nothing is owed; the kernel
    has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V10 m c) (V11 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's eleven items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .region (reg2 m),
    .host (hseg hostOps3 hostOps3_sub hostOps3_fresh (W9 m)),
    .region (reg3 m) ]

/-- The program is the run of those segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.Kernel.Hand

end
-- ==== Proof.KB_Frame.lean ====
/-
  The frame of the whole program: from any launch memory with zero counters every weakly fair execution ends,
  nothing faulting, and every argument array ends as launched. The run leaves each unscoped buffer of each core
  at the last contents of the fold through the program's items; an argument array is the output of no region
  and is written by no host stretch, so the fold never changes it. Generic in the float values.
-/
import proofs.«409256_j4844723109935_1_alg».proof.Proof.KB_Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

/-- Argument 0 is written by no item of the program. -/
theorem kept_arg0 (c : Dev nD) : W11 m c (Proc.devRef .tc main_arg0) = m ((c : Thread nD τ).loc main_arg0) :=
  W11_untouched m c main_arg0 (by decide) (by decide) (by decide) (by decide) (by decide) (by decide) (by decide) (by decide) (by decide) (by decide) (by decide)
/-- Argument 1 is written by no item of the program. -/
theorem kept_arg1 (c : Dev nD) : W11 m c (Proc.devRef .tc main_arg1) = m ((c : Thread nD τ).loc main_arg1) :=
  W11_untouched m c main_arg1 (by decide) (by decide) (by decide) (by decide) (by decide) (by decide) (by decide) (by decide) (by decide) (by decide) (by decide)
/-- Argument 2 is written by no item of the program. -/
theorem kept_arg2 (c : Dev nD) : W11 m c (Proc.devRef .tc main_arg2) = m ((c : Thread nD τ).loc main_arg2) :=
  W11_untouched m c main_arg2 (by decide) (by decide) (by decide) (by decide) (by decide) (by decide) (by decide) (by decide) (by decide) (by decide) (by decide)
/-- Argument 3 is written by no item of the program. -/
theorem kept_arg3 (c : Dev nD) : W11 m c (Proc.devRef .tc main_arg3) = m ((c : Thread nD τ).loc main_arg3) :=
  W11_untouched m c main_arg3 (by decide) (by decide) (by decide) (by decide) (by decide) (by decide) (by decide) (by decide) (by decide) (by decide) (by decide)
/-- Argument 4 is written by no item of the program. -/
theorem kept_arg4 (c : Dev nD) : W11 m c (Proc.devRef .tc main_arg4) = m ((c : Thread nD τ).loc main_arg4) :=
  W11_untouched m c main_arg4 (by decide) (by decide) (by decide) (by decide) (by decide) (by decide) (by decide) (by decide) (by decide) (by decide) (by decide)
/-- Argument 5 is written by no item of the program. -/
theorem kept_arg5 (c : Dev nD) : W11 m c (Proc.devRef .tc main_arg5) = m ((c : Thread nD τ).loc main_arg5) :=
  W11_untouched m c main_arg5 (by decide) (by decide) (by decide) (by decide) (by decide) (by decide) (by decide) (by decide) (by decide) (by decide) (by decide)
/-- Argument 6 is written by no item of the program. -/
theorem kept_arg6 (c : Dev nD) : W11 m c (Proc.devRef .tc main_arg6) = m ((c : Thread nD τ).loc main_arg6) :=
  W11_untouched m c main_arg6 (by decide) (by decide) (by decide) (by decide) (by decide) (by decide) (by decide) (by decide) (by decide) (by decide) (by decide)
/-- Argument 7 is written by no item of the program. -/
theorem kept_arg7 (c : Dev nD) : W11 m c (Proc.devRef .tc main_arg7) = m ((c : Thread nD τ).loc main_arg7) :=
  W11_untouched m c main_arg7 (by decide) (by decide) (by decide) (by decide) (by decide) (by decide) (by decide) (by decide) (by decide) (by decide) (by decide)
/-- Argument 8 is written by no item of the program. -/
theorem kept_arg8 (c : Dev nD) : W11 m c (Proc.devRef .tc main_arg8) = m ((c : Thread nD τ).loc main_arg8) :=
  W11_untouched m c main_arg8 (by decide) (by decide) (by decide) (by decide) (by decide) (by decide) (by decide) (by decide) (by decide) (by decide) (by decide)
/-- Argument 9 is written by no item of the program. -/
theorem kept_arg9 (c : Dev nD) : W11 m c (Proc.devRef .tc main_arg9) = m ((c : Thread nD τ).loc main_arg9) :=
  W11_untouched m c main_arg9 (by decide) (by decide) (by decide) (by decide) (by decide) (by decide) (by decide) (by decide) (by decide) (by decide) (by decide)
/-- Argument 10 is written by no item of the program. -/
theorem kept_arg10 (c : Dev nD) : W11 m c (Proc.devRef .tc main_arg10) = m ((c : Thread nD τ).loc main_arg10) :=
  W11_untouched m c main_arg10 (by decide) (by decide) (by decide) (by decide) (by decide) (by decide) (by decide) (by decide) (by decide) (by decide) (by decide)
/-- Argument 11 is written by no item of the program. -/
theorem kept_arg11 (c : Dev nD) : W11 m c (Proc.devRef .tc main_arg11) = m ((c : Thread nD τ).loc main_arg11) :=
  W11_untouched m c main_arg11 (by decide) (by decide) (by decide) (by decide) (by decide) (by decide) (by decide) (by decide) (by decide) (by decide) (by decide)

/-- The result's buffer after the run is the last region's output array, and every argument array is as launched. -/
theorem run_result : θ_run defs (onTc (τ := τ) (main (F := F))) ⟨m, fun _ => 0, ρ⟩ (fun r => ∀ c : Dev nD,
      r.2.mem ((c : Thread nD τ).loc main_v80) = W11 m c (Proc.devRef .tc main_v80)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun r h c =>
    ⟨h c _ (mem_uc main_v80 (by decide)),
      (h c _ (mem_uc main_arg0 (by decide))).trans (kept_arg0 m c),
      (h c _ (mem_uc main_arg1 (by decide))).trans (kept_arg1 m c),
      (h c _ (mem_uc main_arg2 (by decide))).trans (kept_arg2 m c),
      (h c _ (mem_uc main_arg3 (by decide))).trans (kept_arg3 m c),
      (h c _ (mem_uc main_arg4 (by decide))).trans (kept_arg4 m c),
      (h c _ (mem_uc main_arg5 (by decide))).trans (kept_arg5 m c),
      (h c _ (mem_uc main_arg6 (by decide))).trans (kept_arg6 m c),
      (h c _ (mem_uc main_arg7 (by decide))).trans (kept_arg7 m c),
      (h c _ (mem_uc main_arg8 (by decide))).trans (kept_arg8 m c),
      (h c _ (mem_uc main_arg9 (by decide))).trans (kept_arg9 m c),
      (h c _ (mem_uc main_arg10 (by decide))).trans (kept_arg10 m c),
      (h c _ (mem_uc main_arg11 (by decide))).trans (kept_arg11 m c)⟩) (run_all m ρ)

/-- The frame: the run ends, faults nowhere, and leaves the argument arrays unchanged. -/
theorem frame_all : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun r h c => (h c).2) (run_result m ρ)

end Cert.Kernel.Hand

end
-- ==== Proof.KI_Reg0.lean ====
/-
  Region 0: the first dense layer's product x · W1, row tile by row tile. Each of the 25 grid points is handed
  a tile of 2000 rows of x and the whole of W1, and leaves in its output tile the matrix product of the two
  (into a zero accumulator). Stated at any contents V of the core's buffers at the region's entry: the tile a
  point reads, what the body leaves in the output tile as a function of what it read, the body's triple, and
  the pipeline's proof data with its obligation at every point.
-/
import proofs.«409256_j4844723109935_1_alg».proof.Proof.Gen.KernelIdeal.Launch
import proofs.«409256_j4844723109935_1_alg».proof.Proof.Gen.KernelIdeal.Skeleton
import proofs.«409256_j4844723109935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of x sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, sits in its staging buffer at every point (its tile index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_o : Rect S2000x64 := Rect.unit (s := S2000x64) ![0, 0] S2000x64.size inb_S2000x64_S2000x64_0_0

/-- What the body leaves in the output tile: one store of the product of the two tiles it loaded. -/
def out0_2 (x0 : Vec F S2000x128 .f32) (x1 : Vec F S128x64 .f32) : Vec F S2000x64 .f32 :=
  View.canon [⟨r0_o, k0_pay1 (View.ld x0 r0_x) (View.ld x1 r0_w)⟩]

theorem cover0_2 (p0 : Vec F S2000x64 .f32) (y : S2000x64.Idx) :
    ∃ pc ∈ ([⟨r0_o, p0⟩] : List (View.Piece (Elt F) S2000x64 .f32)), y ∈ pc.1.set :=
  View.cover_of_tiled [⟨r0_o, p0⟩] S2000x64.size (by rfl) y

set_option maxHeartbeats 1000000 in
/-- The body on whole staging buffers, the inputs' at contents x0 and x1 and the output's at anything, runs to the
    continuation with the inputs' as they were and the output's at the product. -/
theorem sound_kernel0 (c : Dev nD) (E : Set ℕ) (i : grid0.Coords) (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body at point t each
    input's buffer still at its tile and the output's at the product of the two tiles; nothing owed, full shares,
    the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Reg1.lean ====
/-
  Region 1: the second dense layer's product h · W2, row tile by row tile, h the rectified first layer. Each of the
  25 grid points is handed a tile of 2000 rows of h and the whole of W2, and leaves in its output tile the matrix
  product of the two (into a zero accumulator). Stated at any contents V of the core's buffers at the region's
  entry: the tile a point reads, what the body leaves in the output tile as a function of what it read, the
  body's triple, and the pipeline's proof data with its obligation at every point.
-/
import proofs.«409256_j4844723109935_1_alg».proof.Proof.Gen.KernelIdeal.Launch
import proofs.«409256_j4844723109935_1_alg».proof.Proof.Gen.KernelIdeal.Skeleton
import proofs.«409256_j4844723109935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of h sits in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix, fetched once, sits in its staging buffer at every point (its tile index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S2000x64 := Rect.unit (s := S2000x64) ![0, 0] S2000x64.size inb_S2000x64_S2000x64_0_0
abbrev r1_w : Rect S64x64 := Rect.unit (s := S64x64) ![0, 0] S64x64.size inb_S64x64_S64x64_0_0
abbrev r1_o : Rect S2000x64 := Rect.unit (s := S2000x64) ![0, 0] S2000x64.size inb_S2000x64_S2000x64_0_0

/-- What the body leaves in the output tile: one store of the product of the two tiles it loaded. -/
def out1_2 (x0 : Vec F S2000x64 .f32) (x1 : Vec F S64x64 .f32) : Vec F S2000x64 .f32 :=
  View.canon [⟨r1_o, k1_pay1 (View.ld x0 r1_x) (View.ld x1 r1_w)⟩]

theorem cover1_2 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

set_option maxHeartbeats 1000000 in
/-- The body on whole staging buffers, the inputs' at contents x0 and x1 and the output's at anything, runs to the
    continuation with the inputs' as they were and the output's at the product. -/
theorem sound_kernel1 (c : Dev nD) (E : Set ℕ) (i : grid1.Coords) (arg1 : Memref sig .tc .vmem S2000x64 .f32) (harg1 : arg1.IsWhole) (arg2 : Memref sig .tc .vmem S64x64 .f32) (harg2 : arg2.IsWhole)
    (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c: the arrays as the region finds them; after the body at point t each
    input's buffer still at its tile and the output's at the product of the two tiles; nothing owed, full shares,
    the invariant the scoped rest and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Reg2.lean ====
/-
  Region 2: the pooling. The 25 grid points walk the 50000 nodes in tiles of 2000 rows; at each point the body is
  handed the tile of graph ids (one id per node) and the tile of node features, turns the ids into a one-hot matrix
  against the 512 graph slots, and adds (one-hot)ᵀ · features into a 512 × 64 running sum kept in a scratch buffer
  that lives across the points. At the first point the scratch is first set to zero; at the last point the finished
  sum is copied into the output tile, which is written back there and nowhere else. Stated at any contents V of the
  core's buffers at the region's entry: the tile a point reads, the running sum after each point by recursion on the
  point, the body's triple in each of the three control cases, and the pipeline's proof data, whose invariant
  carries the scratch at the running sum, with its obligation at every point.
-/
import proofs.«409256_j4844723109935_1_alg».proof.Proof.Gen.KernelIdeal.Launch
import proofs.«409256_j4844723109935_1_alg».proof.Proof.Gen.KernelIdeal.Skeleton
import proofs.«409256_j4844723109935_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional of the body (the reset of the scratch), as the body computes it from the grid coordinate. -/
abbrev cond2_0 (i : grid2.Coords) : Prop := (Scalar.cmpi .ne (Scalar.extui (Scalar.cmpi .eq (BitVec.ofNat 32 (i 0).val) 0#32)) 0#32) = 1#1
/-- The second conditional (the copy of the scratch into the output tile). -/
abbrev cond2_1 (i : grid2.Coords) : Prop := k2_cond2 i = 1#1

/-- The reset happens at the first point only. -/
theorem hcond2_0 : ∀ t : Fin cfg2.N, cond2_0 (grid2.coords t) ↔ t.val = 0 :=
  (by decide +kernel : ∀ t : Fin grid2.N, cond2_0 (grid2.coords t) ↔ t.val = 0)
/-- The copy out happens at the last point only. -/
theorem hcond2_1 : ∀ t : Fin cfg2.N, cond2_1 (grid2.coords t) ↔ t.val = 24 :=
  (by decide +kernel : ∀ t : Fin grid2.N, cond2_1 (grid2.coords t) ↔ t.val = 24)

theorem zero_off2 : (![0, 0] : Fin 2 → ℕ) = fun _ => 0 := by
  funext a; fin_cases a <;> rfl

/-- One store through the whole rectangle covers the whole scratch. -/
theorem cover2_one (p0 : Vec F S512x64 .f32) (L : List (View.Piece (Elt F) S512x64 .f32)) (y : S512x64.Idx) :
    ∃ pc ∈ ((⟨Rect.unit (s := S512x64) ![0, 0] S512x64.size inb_S512x64_S512x64_0_0, p0⟩ : View.Piece (Elt F) S512x64 .f32) :: L), y ∈ pc.1.set :=
  ⟨_, List.mem_cons_self, View.mem_set_unit_zero zero_off2 inb_S512x64_S512x64_0_0 y⟩

set_option maxHeartbeats 1000000 in
/-- A middle point: neither conditional taken. The scratch at xs is left at the update of xs by the two tiles; the
    output tile is handed back as it was. -/
theorem sound_kernel2_B (c : Dev nD) (E : Set ℕ) (i : grid2.Coords)
    (arg1 : Memref sig .tc .vmem S2000x1 .i32) (harg1 : arg1.IsWhole) (arg2 : Memref sig .tc .vmem S2000x64 .f32) (harg2 : arg2.IsWhole)
    (arg3 : Memref sig .tc .vmem S512x64 .f32) (harg3 : arg3.IsWhole) (arg4 : Memref sig .tc .vmem S512x64 .f32) (harg4 : arg4.IsWhole)
    (hc0 : ¬cond2_0 i) (hc1 : ¬cond2_1 i)
    (x0 : Vec F S2000x1 .i32) (x1 : Vec F S2000x64 .f32) (xi : Vec F S512x64 .f32) (xs : Vec F S512x64 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x0 x1 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover2_one _ _), View.canon_unit_zero zero_off2]
  simp only [View.readAt_eq_ld, View.ld_unit_zero (S := S2000x1) zero_off2, View.ld_unit_zero (S := S2000x64) zero_off2,
    View.ld_unit_zero (S := S512x64) zero_off2]

set_option maxHeartbeats 1000000 in
/-- The first point: the reset is taken, the copy out is not. The scratch at anything is left at the update of the
    zero splat by the two tiles; the output tile is handed back as it was. -/
theorem sound_kernel2_A (c : Dev nD) (E : Set ℕ) (i : grid2.Coords)
    (arg1 : Memref sig .tc .vmem S2000x1 .i32) (harg1 : arg1.IsWhole) (arg2 : Memref sig .tc .vmem S2000x64 .f32) (harg2 : arg2.IsWhole)
    (arg3 : Memref sig .tc .vmem S512x64 .f32) (harg3 : arg3.IsWhole) (arg4 : Memref sig .tc .vmem S512x64 .f32) (harg4 : arg4.IsWhole)
    (hc0 : cond2_0 i) (hc1 : ¬cond2_1 i)
    (x0 : Vec F S2000x1 .i32) (x1 : Vec F S2000x64 .f32) (xi : Vec F S512x64 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x0 x1 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (cover2_one _ _), View.canon_cons_unit_zero zero_off2, View.readCov_unit_zero _ zero_off2]
  simp only [View.readAt_eq_ld, View.ld_unit_zero (S := S2000x1) zero_off2, View.ld_unit_zero (S := S2000x64) zero_off2,
    View.ld_unit_zero (S := S512x64) zero_off2]

set_option maxHeartbeats 1000000 in
/-- The last point: the reset is not taken, the copy out is. The scratch at xs is left at the update of xs by the two
    tiles, and the output tile, at anything, is left at the same. -/
theorem sound_kernel2_C (c : Dev nD) (E : Set ℕ) (i : grid2.Coords)
    (arg1 : Memref sig .tc .vmem S2000x1 .i32) (harg1 : arg1.IsWhole) (arg2 : Memref sig .tc .vmem S2000x64 .f32) (harg2 : arg2.IsWhole)
    (arg3 : Memref sig .tc .vmem S512x64 .f32) (harg3 : arg3.IsWhole) (arg4 : Memref sig .tc .vmem S512x64 .f32) (harg4 : arg4.IsWhole)
    (hc0 : ¬cond2_0 i) (hc1 : cond2_1 i)
    (x0 : Vec F S2000x1 .i32) (x1 : Vec F S2000x64 .f32) (xs : Vec F S512x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k2_pay2 x0 x1 xs)
            ∗ owns (c : Thread nD τ) arg4 fullShare (k2_pay2 x0 x1 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover2_one _ _), View.canon_unit_zero zero_off2, View.readCov_unit_zero _ zero_off2]
    simp only [View.readAt_eq_ld, View.ld_unit_zero (S := S2000x1) zero_off2, View.ld_unit_zero (S := S2000x64) zero_off2,
    View.ld_unit_zero (S := S512x64) zero_off2]
  iexists _; isplitr
  swap; · iexact HS
  ipureintro
  sl_unfold_words
  rw [View.read_writes_eq_canon _ _ _ (cover2_one _ _), View.canon_unit_zero zero_off2]
  simp only [View.readAt_eq_ld, View.ld_unit_zero (S := S2000x1) zero_off2, View.ld_unit_zero (S := S2000x64) zero_off2,
    View.ld_unit_zero (S := S512x64) zero_off2]

/-- Window w's tile at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile of graph ids sits in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The tile of node features sits in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- What the scratch holds after point n: the running sum. After the first point, the update of the zero splat by
    that point's two tiles; after a later point, the update of what the point before left by this point's tiles. -/
def acc2 (c : Dev nD) : (n : ℕ) → n < cfg2.N → Vec F S512x64 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem acc2_zero (c : Dev nD) (h : 0 < cfg2.N) :
    acc2 V c 0 h = k2_pay2 (iblk2 V c 0 ⟨0, h⟩) (iblk2 V c 1 ⟨0, h⟩) (k2_pay1 (F := F)) := rfl

theorem acc2_succ (c : Dev nD) (n : ℕ) (h : n + 1 < cfg2.N) :
    acc2 V c (n + 1) h = k2_pay2 (iblk2 V c 0 ⟨n + 1, h⟩) (iblk2 V c 1 ⟨n + 1, h⟩) (acc2 V c n (Nat.lt_of_succ_lt h)) := rfl

/-- The running sum at the first point, the point given as an element of the grid. -/
theorem acc2_first (c : Dev nD) (t : Fin cfg2.N) (h0 : t.val = 0) :
    acc2 V c t.val t.isLt = k2_pay2 (iblk2 V c 0 t) (iblk2 V c 1 t) (k2_pay1 (F := F)) := by
  obtain ⟨n, hn⟩ := t
  cases n with
  | zero => rfl
  | succ n => exact absurd h0 (Nat.succ_ne_zero n)

/-- The running sum at a later point, over what the point before left. -/
theorem acc2_later (c : Dev nD) (t : Fin cfg2.N) (h0 : t.val ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h0
  | succ n => rfl

/-! ## Where the output window is idle -/

/-- The two input windows are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Where the copy out is not taken the output window is idle, -/
theorem idleAt2_2 : ∀ t : Fin cfg2.N, ¬cond2_1 (grid2.coords t) → cfg2.idle 2 (grid2.coords t) = true := by decide +kernel
/-- and its tile is not written back; -/
theorem noFlush2_2 : ∀ t : Fin cfg2.N, ¬cond2_1 (grid2.coords t) → (cfg2.win 2).flush t = false := by decide +kernel
/-- where it is taken the window is live. -/
theorem liveAt2_2 : ∀ t : Fin cfg2.N, cond2_1 (grid2.coords t) → cfg2.idle 2 (grid2.coords t) = false := by decide +kernel

/-! ## The invariant -/

/-- The scratch the body carries between points, as the pipeline passes it. -/
abbrev scM2 : Memref sig .tc .vmem S512x64 .f32 := Memref.whole cc2_scratch0

/-- The core's scoped buffers that are neither a staging buffer of this region nor its scratch, at some contents each. -/
abbrev rest2 (c : Dev nD) : sProp 𝕄 :=
  Pipeline.scopedRestBut (Ix := Unit) (Name := ℕ) (U := UR sig nD τ) (Lvl := ℕ) (Val := Elt F) spec2 c [cc2_scratch0]

/-- What the launch hands the region, with the scratch taken out of the scoped rest as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list spec2 c [cc2_scratch0] (by decide) (by decide)]
  simp only [scM2, owns_whole, bigSepL_singleton]; try rfl

/-- The invariant before position n: before the first point what the launch hands over (the scratch at anything);
    afterwards the same with the scratch at the running sum the point before left. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ rest2 (F := F) c) ∗ (∃ r, prngReg c r)) := by
  cases n with
  | zero => exact absurd rfl hz
  | succ n => rfl

/-! ## The proof data -/

/-- The proof data of pipeline 2 on core c: the arrays as the region finds them; after the body at point t each
    input's buffer still at its tile and the output's at the running sum (which the body puts there at the last
    point only: elsewhere the window is idle and this is not consulted); nothing owed, full shares; the invariant
    carrying the scratch at the running sum. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- At the last point the output tile is left at the finished running sum. -/
theorem after2_2_last (c : Dev nD) (t : Fin cfg2.N) (ht : t.val = 24) : (dat2 V c).after 2 t = acc2 V c t.val t.isLt :=
  after2_2 V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point. The inputs' buffers hold their tiles; the position decides the case. At the first point the
    invariant hands over the scratch at anything and takes it back at the first running sum; at a later point it hands
    it over at what the point before left and takes it back at this point's running sum. Except at the last point the
    output's buffer goes back as it came; at the last it comes back at the finished sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 25 := lt_of_lt_of_eq t.isLt (show cfg2.N = 25 from N_2)
  by_cases h0 : t.val = 0
  · have h1 : ¬t.val = 24 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [acc2_first V c t h0, PhiS2_castSucc V c t, PhiS2_zero V c _ _ h0, PhiA2_eq]
    iintro ⟨⟨⟨HS, HR⟩, Hg⟩, Ho, ⟨%d0, H0⟩, ⟨%d1, H1⟩, ⟨%d2, H2⟩⟩
    iapply (sound_kernel2_A c Set.univ (grid2.coords t) _ _ _ _ _ _ _ _ hc0 hc1 (iblk2 V c 0 t) (iblk2 V c 1 t) ((dat2 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists d2; iexact H2
  · rw [acc2_later V c t h0, PhiS2_castSucc V c t, PhiS2_pos V c _ _ h0]
    have hc0 : ¬cond2_0 (grid2.coords t) := fun h => h0 ((hcond2_0 t).mp h)
    by_cases h1 : t.val = 24
    · have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2, acc2_later V c t h0]
      iintro ⟨⟨⟨HS, HR⟩, Hg⟩, Ho, ⟨%d0, H0⟩, ⟨%d1, H1⟩, ⟨%d2, H2⟩⟩
      iapply (sound_kernel2_C c Set.univ (grid2.coords t) _ _ _ _ _ _ _ _ hc0 hc1 (iblk2 V c 0 t) (iblk2 V c 1 t)
        (acc2 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS, HR⟩, Hg⟩, Ho, ⟨%d0, H0⟩, ⟨%d1, H1⟩, ⟨%d2, H2⟩⟩
      iapply (sound_kernel2_B c Set.univ (grid2.coords t) _ _ _ _ _ _ _ _ hc0 hc1 (iblk2 V c 0 t) (iblk2 V c 1 t) ((dat2 V c).before 2 t d2)
        (acc2 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists d2; iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After any point the invariant gives back what the launch handed over: the scratch's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS, HR⟩, Hg⟩
  isplitr [Hg]
  · isplitl [HS]
    · iexists _; iexact HS
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 25 := N_2; omega)

end Cert.KernelIdeal.Hand

end
-- ==== Proof.KI_Reg3.lean ====
/-
  Region 3: the two-layer head on the pooled means, in one grid point: (p · LW1 + Lb1) · LW2 + Lb2, each product
  into a zero accumulator, each bias a row broadcast down the 512 rows. Stated at any contents V of the core's
  buffers at the region's entry: the (whole-array) tile each window reads, what the body leaves in the output
  as a function of what it read, the body's triple, and the pipeline's proof data with its obligation.
-/
import proofs.«409256_j4844723109935_1_alg».proof.Proof.Gen.KernelIdeal.Launch
import proofs.«409256_j4844723109935_1_alg».proof.Proof.Gen.KernelIdeal.Skeleton
import proofs.«409256_j4844723109935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the pooled means) sits in its staging buffer at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the first head weight) sits in its staging buffer at the point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the first head bias as a row) sits in its staging buffer at the point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (the second head weight) sits in its staging buffer at the point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (the second head bias as a row) sits in its staging buffer at the point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S512x64 := Rect.unit (s := S512x64) ![0, 0] S512x64.size inb_S512x64_S512x64_0_0
abbrev r3_1 : Rect S64x32 := Rect.unit (s := S64x32) ![0, 0] S64x32.size inb_S64x32_S64x32_0_0
abbrev r3_2 : Rect S1x32 := Rect.unit (s := S1x32) ![0, 0] S1x32.size inb_S1x32_S1x32_0_0
abbrev r3_3 : Rect S32x10 := Rect.unit (s := S32x10) ![0, 0] S32x10.size inb_S32x10_S32x10_0_0
abbrev r3_4 : Rect S1x10 := Rect.unit (s := S1x10) ![0, 0] S1x10.size inb_S1x10_S1x10_0_0
abbrev r3_o : Rect S512x10 := Rect.unit (s := S512x10) ![0, 0] S512x10.size inb_S512x10_S512x10_0_0

/-- What the body leaves in the output: one store of the head applied to the five tiles it loaded. -/
def out3_5 (x0 : Vec F S512x64 .f32) (x1 : Vec F S64x32 .f32) (x2 : Vec F S1x32 .f32) (x3 : Vec F S32x10 .f32) (x4 : Vec F S1x10 .f32) : Vec F S512x10 .f32 :=
  View.canon [⟨r3_o, k3_pay1 (View.ld x0 r3_0) (View.ld x1 r3_1) (View.ld x2 r3_2) (View.ld x3 r3_3) (View.ld x4 r3_4)⟩]

theorem cover3_5 (p0 : Vec F S512x10 .f32) (y : S512x10.Idx) :
    ∃ pc ∈ ([⟨r3_o, p0⟩] : List (View.Piece (Elt F) S512x10 .f32)), y ∈ pc.1.set :=
  View.cover_of_tiled [⟨r3_o, p0⟩] S512x10.size (by rfl) y

set_option maxHeartbeats 1000000 in
/-- The body on whole staging buffers, the inputs' at their contents and the output's at anything, runs to the
    continuation with the inputs' as they were and the output's at the head of them. -/
theorem sound_kernel3 (c : Dev nD) (E : Set ℕ) (i : grid3.Coords) (arg1 : Memref sig .tc .vmem S512x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S32x10 .f32) (harg4 : arg4.IsWhole)
    (arg5 : Memref sig .tc .vmem S1x10 .f32) (harg5 : arg5.IsWhole) (arg6 : Memref sig .tc .vmem S512x10 .f32) (harg6 : arg6.IsWhole)
    (x0 : Vec F S512x64 .f32) (x1 : Vec F S64x32 .f32) (x2 : Vec F S1x32 .f32) (x3 : Vec F S32x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__head_kernel i arg1 harg1 arg2 harg2 arg3 harg3 arg4 harg4 arg5 harg5 arg6 harg6) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core c: the arrays as the region finds them; after the body each input's
    buffer still at its tile and the output's at the head of the five tiles; nothing owed, full shares, the
    invariant the scoped rest and the generator register. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI_Chain.lean ====
/-
  What the core's buffers hold between the items of the program: a fold from the launch memory through the host
  stretches (each stretch's operations applied in order) and the four kernel regions (a region's arrays at what
  its write-backs leave, every other buffer as the region found it), and, step by step, that a buffer no item
  writes keeps its contents. Every argument array is such a buffer, so it ends as launched.
-/
import proofs.«409256_j4844723109935_1_alg».proof.Proof.Gen.KernelIdeal.Regions
import proofs.«409256_j4844723109935_1_alg».proof.Proof.KI_Reg0
import proofs.«409256_j4844723109935_1_alg».proof.Proof.KI_Reg1
import proofs.«409256_j4844723109935_1_alg».proof.Proof.KI_Reg2
import proofs.«409256_j4844723109935_1_alg».proof.Proof.KI_Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffers at launch. -/
abbrev W0 : Dev nD → Valuation τ sig (Elt F) := fun c b => m (c, b)
/-- After the first host stretch (the edge lists with self loops, the degrees). -/
abbrev W1 : Dev nD → Valuation τ sig (Elt F) := fun c => StableHlo.after hostOps0 (W0 m c)
/-- After the inverse square roots of the positive degrees. -/
abbrev W2 : Dev nD → Valuation τ sig (Elt F) := fun c => StableHlo.after hostOps0_1 (W1 m c)
/-- After the edge normalisation: region 0's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- After the first message passing and bias. -/
abbrev W5 : Dev nD → Valuation τ sig (Elt F) := fun c => StableHlo.after hostOps1 (W4 m c)
/-- After the rectifier: region 1's entry. -/
abbrev W6 : Dev nD → Valuation τ sig (Elt F) := fun c => StableHlo.after hostOps1_1 (W5 m c)
abbrev V6 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (V6 m) c).arrAt w cfg1.N
abbrev V7 : (c : Dev nD) → (b : Ref sig .tc) → Buf (Elt F) ((c : Thread nD τ).loc b) := fun c b => W7 m c b
/-- After the second message passing and bias: region 2's entry. -/
abbrev W8 : Dev nD → Valuation τ sig (Elt F) := fun c => StableHlo.after hostOps2 (W7 m c)
abbrev V8 : (c : Dev nD) → (b : Ref sig .tc) → Buf (Elt F) ((c : Thread nD τ).loc b) := fun c b => W8 m c b
/-- At region 2's exit. -/
def W9 (c : Dev nD) : Valuation τ sig (Elt F) :=
  Pipeline.withArrays spec2 c (W8 m c) fun w => (dat2 (V8 m) c).arrAt w cfg2.N
abbrev V9 : (c : Dev nD) → (b : Ref sig .tc) → Buf (Elt F) ((c : Thread nD τ).loc b) := fun c b => W9 m c b
/-- After the graph sizes and the division: region 3's entry. -/
abbrev W10 : Dev nD → Valuation τ sig (Elt F) := fun c => StableHlo.after hostOps3 (W9 m c)
abbrev V10 : (c : Dev nD) → (b : Ref sig .tc) → Buf (Elt F) ((c : Thread nD τ).loc b) := fun c b => W10 m c b
/-- At region 3's exit: the end. -/
def W11 (c : Dev nD) : Valuation τ sig (Elt F) :=
  Pipeline.withArrays spec3 c (W10 m c) fun w => (dat3 (V10 m) c).arrAt w cfg3.N
abbrev V11 : (c : Dev nD) → (b : Ref sig .tc) → Buf (Elt F) ((c : Thread nD τ).loc b) := fun c b => W11 m c b

/-! ## A region's exit: its arrays at what the pipeline leaves, the rest as entered -/

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)

theorem W11_arr (c : Dev nD) (w : Fin cfg3.W) :
    W11 m c (Proc.devRef .tc (Pipeline.arrRef spec3 w)) = (dat3 (V10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
theorem hF3 (c : Dev nD) (w : Fin cfg3.W) : (dat3 (V10 m) c).arrAt w cfg3.N = V11 m c (Pipeline.arrRef spec3 w) :=
  (W11_arr m c w).symm
theorem hrest3 (c : Dev nD) : ∀ b, b ∉ Finset.univ.image (Pipeline.arrRef spec3) → V11 m c b = V10 m c b :=
  fun b hb => W11_of_ne m c b fun w e => hb (Finset.mem_image.mpr ⟨w, Finset.mem_univ _, e⟩)

/-! ## A region changes only its output array -/

/-- Region 0 changes only the first product's array. -/
theorem W4_keep (c : Dev nD) (b : Ref sig .tc) (hb : b ≠ main_v32) : W4 m c (Proc.devRef .tc b) = W3 m c (Proc.devRef .tc b) := by
  by_cases h0 : b = main_arg0
  · subst h0; exact (W4_arr m c 0).trans (((dat0 (V3 m) c).arrAt_in 0 rfl _).trans (A_eq0 (V3 m) c 0))
  by_cases h1 : b = main_arg4
  · subst h1; exact (W4_arr m c 1).trans (((dat0 (V3 m) c).arrAt_in 1 rfl _).trans (A_eq0 (V3 m) c 1))
  refine W4_of_ne m c b fun w => ?_
  match w with
  | ⟨0, _⟩ => exact fun e => h0 e.symm
  | ⟨1, _⟩ => exact fun e => h1 e.symm
  | ⟨2, _⟩ => exact fun e => hb e.symm

/-- Region 1 changes only the second product's array. -/
theorem W7_keep (c : Dev nD) (b : Ref sig .tc) (hb : b ≠ main_v50) : W7 m c (Proc.devRef .tc b) = W6 m c (Proc.devRef .tc b) := by
  by_cases h0 : b = main_v49
  · subst h0; exact (W7_arr m c 0).trans (((dat1 (V6 m) c).arrAt_in 0 rfl _).trans (A_eq1 (V6 m) c 0))
  by_cases h1 : b = main_arg6
  · subst h1; exact (W7_arr m c 1).trans (((dat1 (V6 m) c).arrAt_in 1 rfl _).trans (A_eq1 (V6 m) c 1))
  refine W7_of_ne m c b fun w => ?_
  match w with
  | ⟨0, _⟩ => exact fun e => h0 e.symm
  | ⟨1, _⟩ => exact fun e => h1 e.symm
  | ⟨2, _⟩ => exact fun e => hb e.symm

/-- Region 2 changes only the pooled sums' array. -/
theorem W9_keep (c : Dev nD) (b : Ref sig .tc) (hb : b ≠ main_v68) : W9 m c (Proc.devRef .tc b) = W8 m c (Proc.devRef .tc b) := by
  by_cases h0 : b = main_v67
  · subst h0; exact (W9_arr m c 0).trans (((dat2 (V8 m) c).arrAt_in 0 rfl _).trans (A_eq2 (V8 m) c 0))
  by_cases h1 : b = main_v66
  · subst h1; exact (W9_arr m c 1).trans (((dat2 (V8 m) c).arrAt_in 1 rfl _).trans (A_eq2 (V8 m) c 1))
  refine W9_of_ne m c b fun w => ?_
  match w with
  | ⟨0, _⟩ => exact fun e => h0 e.symm
  | ⟨1, _⟩ => exact fun e => h1 e.symm
  | ⟨2, _⟩ => exact fun e => hb e.symm

/-- Region 3 changes only the result array. -/
theorem W11_keep (c : Dev nD) (b : Ref sig .tc) (hb : b ≠ main_v80) : W11 m c (Proc.devRef .tc b) = W10 m c (Proc.devRef .tc b) := by
  by_cases h0 : b = main_v77
  · subst h0; exact (W11_arr m c 0).trans (((dat3 (V10 m) c).arrAt_in 0 rfl _).trans (A_eq3 (V10 m) c 0))
  by_cases h1 : b = main_arg8
  · subst h1; exact (W11_arr m c 1).trans (((dat3 (V10 m) c).arrAt_in 1 rfl _).trans (A_eq3 (V10 m) c 1))
  by_cases h2 : b = main_v78
  · subst h2; exact (W11_arr m c 2).trans (((dat3 (V10 m) c).arrAt_in 2 rfl _).trans (A_eq3 (V10 m) c 2))
  by_cases h3 : b = main_arg10
  · subst h3; exact (W11_arr m c 3).trans (((dat3 (V10 m) c).arrAt_in 3 rfl _).trans (A_eq3 (V10 m) c 3))
  by_cases h4 : b = main_v79
  · subst h4; exact (W11_arr m c 4).trans (((dat3 (V10 m) c).arrAt_in 4 rfl _).trans (A_eq3 (V10 m) c 4))
  refine W11_of_ne m c b fun w => ?_
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => hb e.symm

/-! ## A host stretch changes only the buffers its operations write -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W6_of (c : Dev nD) (r : Ref sig .tc) (h : r ∉ hostOps1_1_W) : W6 m c (Proc.devRef .tc r) = W5 m c (Proc.devRef .tc r) :=
  StableHlo.after_of_writes_sub hostOps1_1 _ hostOps1_1_writes h
theorem W8_of (c : Dev nD) (r : Ref sig .tc) (h : r ∉ hostOps2_W) : W8 m c (Proc.devRef .tc r) = W7 m c (Proc.devRef .tc r) :=
  StableHlo.after_of_writes_sub hostOps2 _ hostOps2_writes h
theorem W10_of (c : Dev nD) (r : Ref sig .tc) (h : r ∉ hostOps3_W) : W10 m c (Proc.devRef .tc r) = W9 m c (Proc.devRef .tc r) :=
  StableHlo.after_of_writes_sub hostOps3 _ hostOps3_writes h

/-- A buffer that no host stretch writes and that is no region's output ends as launched. -/
theorem W11_untouched (c : Dev nD) (r : Ref sig .tc)
    (h0 : r ∉ hostOps0_W) (h1 : r ∉ hostOps0_1_W) (h2 : r ∉ hostOps0_2_W) (h3 : r ≠ main_v32)
    (h4 : r ∉ hostOps1_W) (h5 : r ∉ hostOps1_1_W) (h6 : r ≠ main_v50) (h7 : r ∉ hostOps2_W) (h8 : r ≠ main_v68)
    (h9 : r ∉ hostOps3_W) (h10 : r ≠ main_v80) :
    W11 m c (Proc.devRef .tc r) = m ((c : Thread nD τ).loc r) :=
  (W11_keep m c r h10).trans <| (W10_of m c r h9).trans <| (W9_keep m c r h8).trans <| (W8_of m c r h7).trans <|
    (W7_keep m c r h6).trans <| (W6_of m c r h5).trans <| (W5_of m c r h4).trans <| (W4_keep m c r h3).trans <|
    (W3_of m c r h2).trans <| (W2_of m c r h1).trans <| (W1_of m c r h0).trans rfl

end Cert.KernelIdeal.Hand

end
-- ==== Proof.KI_Run.lean ====
/-
  The run of the whole program: its items — seven stretches of host operations and four kernel regions — as
  segments over the thread state "every unscoped buffer at the contents the fold gives, the generator register at
  some state, nothing owed", each region a record around its pipeline's proof data and body obligation, and the
  launch: every weakly fair execution terminates, nothing faulting, and the final memory holds every unscoped
  buffer at the fold's last contents.
-/
import proofs.«409256_j4844723109935_1_alg».proof.Proof.KI_Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V6 m) c
  | ⟨2, _⟩ => fun c => dat2 (V8 m) c
  | ⟨3, _⟩ => fun c => dat3 (V10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W11 m c) ∗ ∃ r, prngReg c r)

set_option backward.isDefEq.respectTransparency.types false in
/-- Region 0 over the thread state: entered with every unscoped buffer at the contents before it, left with them at
    the contents after it. Its arrays are split out of the unscoped buffers at entry and put back at their final
    contents at exit; the generator register goes into the invariant and comes back; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers at entry and put back at their final
    contents at exit; the generator register goes into the invariant and comes back; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it. Its arrays are split out of the unscoped buffers at entry and put back at their final
    contents at exit; the generator register goes into the invariant and comes back; nothing is owed; the kernel
    has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?h : _ ⊢ (Pipeline.ΦA spec2 c : sProp 𝕄)).trans (hin2 (V8 m) c)
    unfold Pipeline.ΦA
    iintro ⟨Hp, -, Hr⟩
    isplitl [Hr]; · iexact Hr
    iexact Hp
  hout c := by
    rw [Pipeline.ownSems0_none]
    refine (hout2 (V8 m) c).trans (?hb : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at
    the contents after it. Its arrays are split out of the unscoped buffers at entry and put back at their final
    contents at exit; the generator register goes into the invariant and comes back; nothing is owed; the kernel
    has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V10 m c) (V11 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's eleven items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .region (reg2 m),
    .host (hseg hostOps3 hostOps3_sub hostOps3_fresh (W9 m)),
    .region (reg3 m) ]

/-- The program is the run of those segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    the final memory holds every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.KernelIdeal.Hand

end
-- ==== Proof.KI_Frame.lean ====
/-
  The frame of the whole program: from any launch memory with zero counters every weakly fair execution ends,
  nothing faulting, and every argument array ends as launched. The run leaves each unscoped buffer of each core
  at the last contents of the fold through the program's items; an argument array is the output of no region
  and is written by no host stretch, so the fold never changes it. Generic in the float values.
-/
import proofs.«409256_j4844723109935_1_alg».proof.Proof.KI_Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

/-- Argument 0 is written by no item of the program. -/
theorem kept_arg0 (c : Dev nD) : W11 m c (Proc.devRef .tc main_arg0) = m ((c : Thread nD τ).loc main_arg0) :=
  W11_untouched m c main_arg0 (by decide) (by decide) (by decide) (by decide) (by decide) (by decide) (by decide) (by decide) (by decide) (by decide) (by decide)
/-- Argument 1 is written by no item of the program. -/
theorem kept_arg1 (c : Dev nD) : W11 m c (Proc.devRef .tc main_arg1) = m ((c : Thread nD τ).loc main_arg1) :=
  W11_untouched m c main_arg1 (by decide) (by decide) (by decide) (by decide) (by decide) (by decide) (by decide) (by decide) (by decide) (by decide) (by decide)
/-- Argument 2 is written by no item of the program. -/
theorem kept_arg2 (c : Dev nD) : W11 m c (Proc.devRef .tc main_arg2) = m ((c : Thread nD τ).loc main_arg2) :=
  W11_untouched m c main_arg2 (by decide) (by decide) (by decide) (by decide) (by decide) (by decide) (by decide) (by decide) (by decide) (by decide) (by decide)
/-- Argument 3 is written by no item of the program. -/
theorem kept_arg3 (c : Dev nD) : W11 m c (Proc.devRef .tc main_arg3) = m ((c : Thread nD τ).loc main_arg3) :=
  W11_untouched m c main_arg3 (by decide) (by decide) (by decide) (by decide) (by decide) (by decide) (by decide) (by decide) (by decide) (by decide) (by decide)
/-- Argument 4 is written by no item of the program. -/
theorem kept_arg4 (c : Dev nD) : W11 m c (Proc.devRef .tc main_arg4) = m ((c : Thread nD τ).loc main_arg4) :=
  W11_untouched m c main_arg4 (by decide) (by decide) (by decide) (by decide) (by decide) (by decide) (by decide) (by decide) (by decide) (by decide) (by decide)
/-- Argument 5 is written by no item of the program. -/
theorem kept_arg5 (c : Dev nD) : W11 m c (Proc.devRef .tc main_arg5) = m ((c : Thread nD τ).loc main_arg5) :=
  W11_untouched m c main_arg5 (by decide) (by decide) (by decide) (by decide) (by decide) (by decide) (by decide) (by decide) (by decide) (by decide) (by decide)
/-- Argument 6 is written by no item of the program. -/
theorem kept_arg6 (c : Dev nD) : W11 m c (Proc.devRef .tc main_arg6) = m ((c : Thread nD τ).loc main_arg6) :=
  W11_untouched m c main_arg6 (by decide) (by decide) (by decide) (by decide) (by decide) (by decide) (by decide) (by decide) (by decide) (by decide) (by decide)
/-- Argument 7 is written by no item of the program. -/
theorem kept_arg7 (c : Dev nD) : W11 m c (Proc.devRef .tc main_arg7) = m ((c : Thread nD τ).loc main_arg7) :=
  W11_untouched m c main_arg7 (by decide) (by decide) (by decide) (by decide) (by decide) (by decide) (by decide) (by decide) (by decide) (by decide) (by decide)
/-- Argument 8 is written by no item of the program. -/
theorem kept_arg8 (c : Dev nD) : W11 m c (Proc.devRef .tc main_arg8) = m ((c : Thread nD τ).loc main_arg8) :=
  W11_untouched m c main_arg8 (by decide) (by decide) (by decide) (by decide) (by decide) (by decide) (by decide) (by decide) (by decide) (by decide) (by decide)
/-- Argument 9 is written by no item of the program. -/
theorem kept_arg9 (c : Dev nD) : W11 m c (Proc.devRef .tc main_arg9) = m ((c : Thread nD τ).loc main_arg9) :=
  W11_untouched m c main_arg9 (by decide) (by decide) (by decide) (by decide) (by decide) (by decide) (by decide) (by decide) (by decide) (by decide) (by decide)
/-- Argument 10 is written by no item of the program. -/
theorem kept_arg10 (c : Dev nD) : W11 m c (Proc.devRef .tc main_arg10) = m ((c : Thread nD τ).loc main_arg10) :=
  W11_untouched m c main_arg10 (by decide) (by decide) (by decide) (by decide) (by decide) (by decide) (by decide) (by decide) (by decide) (by decide) (by decide)
/-- Argument 11 is written by no item of the program. -/
theorem kept_arg11 (c : Dev nD) : W11 m c (Proc.devRef .tc main_arg11) = m ((c : Thread nD τ).loc main_arg11) :=
  W11_untouched m c main_arg11 (by decide) (by decide) (by decide) (by decide) (by decide) (by decide) (by decide) (by decide) (by decide) (by decide) (by decide)

/-- The result's buffer after the run is the last region's output array, and every argument array is as launched. -/
theorem run_result : θ_run defs (onTc (τ := τ) (main (F := F))) ⟨m, fun _ => 0, ρ⟩ (fun r => ∀ c : Dev nD,
      r.2.mem ((c : Thread nD τ).loc main_v80) = W11 m c (Proc.devRef .tc main_v80)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun r h c =>
    ⟨h c _ (mem_uc main_v80 (by decide)),
      (h c _ (mem_uc main_arg0 (by decide))).trans (kept_arg0 m c),
      (h c _ (mem_uc main_arg1 (by decide))).trans (kept_arg1 m c),
      (h c _ (mem_uc main_arg2 (by decide))).trans (kept_arg2 m c),
      (h c _ (mem_uc main_arg3 (by decide))).trans (kept_arg3 m c),
      (h c _ (mem_uc main_arg4 (by decide))).trans (kept_arg4 m c),
      (h c _ (mem_uc main_arg5 (by decide))).trans (kept_arg5 m c),
      (h c _ (mem_uc main_arg6 (by decide))).trans (kept_arg6 m c),
      (h c _ (mem_uc main_arg7 (by decide))).trans (kept_arg7 m c),
      (h c _ (mem_uc main_arg8 (by decide))).trans (kept_arg8 m c),
      (h c _ (mem_uc main_arg9 (by decide))).trans (kept_arg9 m c),
      (h c _ (mem_uc main_arg10 (by decide))).trans (kept_arg10 m c),
      (h c _ (mem_uc main_arg11 (by decide))).trans (kept_arg11 m c)⟩) (run_all m ρ)

/-- The frame: the run ends, faults nowhere, and leaves the argument arrays unchanged. -/
theorem frame_all : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun r h c => (h c).2) (run_result m ρ)

end Cert.KernelIdeal.Hand

end
-- ==== Proof.KI_Stretch.lean ====
/-
  The host stretches of the kernel program that compute more than one operation deep, read one at a time: what
  the stretch leaves in the buffer that matters, as the reference's corresponding stage applied to the argument
  arrays, given that the buffers the stretch reads hold the reference's earlier stages. Stated at any float
  values: the two sides are then the same composition of the same operations, compared structurally.
-/
import proofs.«409256_j4844723109935_1_alg».proof.Proof.Gen.KernelIdeal.Regions
import proofs.«409256_j4844723109935_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem Idealize.ShloMosaic.StableHlo
open Cert.ReferenceIdeal.Read

section Stretch
variable {F : FTy → Type} [FloatOps F]

/-- The inverse square roots of the positive degrees, from the comparison, the root and the zero the stretch finds. -/
theorem s_v15 (W : Valuation τ sig (Elt F)) (a1 : (⟨Cert.ReferenceIdeal.S2x800000, .i32⟩ : BufTy).Contents (Elt F)) (a2 : (⟨Cert.ReferenceIdeal.S800000, .f32⟩ : BufTy).Contents (Elt F))
    (h1 : W (Proc.devRef .tc main_v13) = val_main_v14 (F := F) a1 a2)
    (h2 : W (Proc.devRef .tc main_v14) = val_main_v15 (F := F) a1 a2)
    (h3 : W (Proc.devRef .tc main_cst_2) = val_main_cst_2 (F := F)) :
    StableHlo.after hostOps0_1 W (Proc.devRef .tc main_v15) = val_main_v16 (F := F) a1 a2 := by
  after_results_simp
  rw [h1, h2, h3]
  rfl

/-- The edge normalisation, from the two extended end-point lists, the extended weights and the degree factors the stretch finds. -/
theorem s_v31 (W : Valuation τ sig (Elt F)) (a1 : (⟨Cert.ReferenceIdeal.S2x800000, .i32⟩ : BufTy).Contents (Elt F)) (a2 : (⟨Cert.ReferenceIdeal.S800000, .f32⟩ : BufTy).Contents (Elt F))
    (h1 : W (Proc.devRef .tc main_v5) = val_main_v6 (F := F) a1)
    (h2 : W (Proc.devRef .tc main_v6) = val_main_v7 (F := F) a1)
    (h3 : W (Proc.devRef .tc main_v8) = val_main_v9 (F := F) a2)
    (h4 : W (Proc.devRef .tc main_v15) = val_main_v16 (F := F) a1 a2) :
    StableHlo.after hostOps0_2 W (Proc.devRef .tc main_v31) = val_main_v32 (F := F) a1 a2 := by
  after_results_simp
  rw [h1, h2, h3, h4]
  rfl

/-- The first message passing and bias, from the normalisation, the end-point lists, the first product and the bias the stretch finds. -/
theorem s_v48 (W : Valuation τ sig (Elt F)) (a0 : (⟨Cert.ReferenceIdeal.S50000x128, .f32⟩ : BufTy).Contents (Elt F)) (a1 : (⟨Cert.ReferenceIdeal.S2x800000, .i32⟩ : BufTy).Contents (Elt F)) (a2 : (⟨Cert.ReferenceIdeal.S800000, .f32⟩ : BufTy).Contents (Elt F)) (a4 : (⟨Cert.ReferenceIdeal.S128x64, .f32⟩ : BufTy).Contents (Elt F)) (a5 : (⟨Cert.ReferenceIdeal.S64, .f32⟩ : BufTy).Contents (Elt F))
    (h1 : W (Proc.devRef .tc main_v31) = val_main_v32 (F := F) a1 a2)
    (h2 : W (Proc.devRef .tc main_v5) = val_main_v6 (F := F) a1)
    (h3 : W (Proc.devRef .tc main_v6) = val_main_v7 (F := F) a1)
    (h4 : W (Proc.devRef .tc main_v32) = val_main_v4 (F := F) a0 a4)
    (h5 : W (Proc.devRef .tc main_arg5) = a5) :
    StableHlo.after hostOps1 W (Proc.devRef .tc main_v48) = val_main_v48 (F := F) a0 a1 a2 a4 a5 := by
  after_results_simp
  rw [h1, h2, h3, h4, h5]
  rfl

/-- The rectifier of the first layer's output. -/
theorem s_v49 (W : Valuation τ sig (Elt F)) (a0 : (⟨Cert.ReferenceIdeal.S50000x128, .f32⟩ : BufTy).Contents (Elt F)) (a1 : (⟨Cert.ReferenceIdeal.S2x800000, .i32⟩ : BufTy).Contents (Elt F)) (a2 : (⟨Cert.ReferenceIdeal.S800000, .f32⟩ : BufTy).Contents (Elt F)) (a4 : (⟨Cert.ReferenceIdeal.S128x64, .f32⟩ : BufTy).Contents (Elt F)) (a5 : (⟨Cert.ReferenceIdeal.S64, .f32⟩ : BufTy).Contents (Elt F))
    (h1 : W (Proc.devRef .tc main_v48) = val_main_v48 (F := F) a0 a1 a2 a4 a5) :
    StableHlo.after hostOps1_1 W (Proc.devRef .tc main_v49) = val_main_v49 (F := F) a0 a1 a2 a4 a5 := by
  after_results_simp
  rw [h1]
  rfl

/-- The second message passing and bias, from the normalisation, the end-point lists, the second product and the bias the stretch finds. -/
theorem s_v66 (W : Valuation τ sig (Elt F)) (a0 : (⟨Cert.ReferenceIdeal.S50000x128, .f32⟩ : BufTy).Contents (Elt F)) (a1 : (⟨Cert.ReferenceIdeal.S2x800000, .i32⟩ : BufTy).Contents (Elt F)) (a2 : (⟨Cert.ReferenceIdeal.S800000, .f32⟩ : BufTy).Contents (Elt F)) (a4 : (⟨Cert.ReferenceIdeal.S128x64, .f32⟩ : BufTy).Contents (Elt F)) (a5 : (⟨Cert.ReferenceIdeal.S64, .f32⟩ : BufTy).Contents (Elt F)) (a6 : (⟨Cert.ReferenceIdeal.S64x64, .f32⟩ : BufTy).Contents (Elt F)) (a7 : (⟨Cert.ReferenceIdeal.S64, .f32⟩ : BufTy).Contents (Elt F))
    (h1 : W (Proc.devRef .tc main_v31) = val_main_v32 (F := F) a1 a2)
    (h2 : W (Proc.devRef .tc main_v5) = val_main_v6 (F := F) a1)
    (h3 : W (Proc.devRef .tc main_v6) = val_main_v7 (F := F) a1)
    (h4 : W (Proc.devRef .tc main_v50) = val_main_v50 (F := F) a0 a1 a2 a4 a5 a6)
    (h5 : W (Proc.devRef .tc main_arg7) = a7) :
    StableHlo.after hostOps2 W (Proc.devRef .tc main_v66) = val_main_v94 (F := F) a0 a1 a2 a4 a5 a6 a7 := by
  after_results_simp
  rw [h1, h2, h3, h4, h5]
  rfl

/-- The means: the pooled sums over the graph sizes, from the sums and the graph numbers the stretch finds. -/
theorem s_v77 (W : Valuation τ sig (Elt F)) (a0 : (⟨Cert.ReferenceIdeal.S50000x128, .f32⟩ : BufTy).Contents (Elt F)) (a1 : (⟨Cert.ReferenceIdeal.S2x800000, .i32⟩ : BufTy).Contents (Elt F)) (a2 : (⟨Cert.ReferenceIdeal.S800000, .f32⟩ : BufTy).Contents (Elt F)) (a3 : (⟨Cert.ReferenceIdeal.S50000, .i32⟩ : BufTy).Contents (Elt F)) (a4 : (⟨Cert.ReferenceIdeal.S128x64, .f32⟩ : BufTy).Contents (Elt F)) (a5 : (⟨Cert.ReferenceIdeal.S64, .f32⟩ : BufTy).Contents (Elt F)) (a6 : (⟨Cert.ReferenceIdeal.S64x64, .f32⟩ : BufTy).Contents (Elt F)) (a7 : (⟨Cert.ReferenceIdeal.S64, .f32⟩ : BufTy).Contents (Elt F))
    (h1 : W (Proc.devRef .tc main_v68) = val_main_v97 (F := F) a0 a1 a2 a3 a4 a5 a6 a7)
    (h2 : W (Proc.devRef .tc main_arg3) = a3) :
    StableHlo.after hostOps3 W (Proc.devRef .tc main_v77) = val_main_v106 (F := F) a0 a1 a2 a3 a4 a5 a6 a7 := by
  after_results_simp
  rw [h1, h2]
  rfl

end Stretch

end Cert.KernelIdeal.Hand

end
-- ==== Proof.KI_Val01.lean ====
/-
  The values regions 0 and 1 leave, at the ideal instance: floats are extended reals, the operations are exact and a
  change of float format is the identity. Each region is a matrix product computed row tile by row tile. Point t of
  the 25 multiplies rows 2000 t … 2000 t + 1999 of the left factor by the whole right factor, into a zero
  accumulator, and stores the 2000 × 64 product as rows 2000 t … 2000 t + 1999 of the output. Entry (r, q) of a
  product depends on row r of the left factor and column q of the right one only, so the tile a point stores is that
  tile of the product of the whole arrays; the 25 tiles cover the 50000 rows (row r lies in tile r / 2000), so the
  output array ends holding the whole product, entry by entry ∑ k, x (r, k) · w (k, q). The reference's dot product of
  the whole arrays is the same sum. Region 0 is x · W1 with inner extent 128, region 1 is h · W2 with inner extent 64.
-/
import proofs.«409256_j4844723109935_1_alg».proof.Proof.KI_Reg0
import proofs.«409256_j4844723109935_1_alg».proof.Proof.KI_Reg1
import proofs.«409256_j4844723109935_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

/-! ## The specification -/

/-- The matrix product, entry by entry: row p of the left factor against column q of the right one. -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

/-- At the entry with coordinates (p, q). -/
theorem mm_ix2 {M K N : Nat} (x : (⟨2, ![M, K]⟩ : Shape).Idx → EReal) (w : (⟨2, ![K, N]⟩ : Shape).Idx → EReal) (p : Fin M) (q : Fin N) :
    mm x w (ix2 p q) = ∑ k : Fin K, x (ix2 p k) * w (ix2 k q) := rfl

/-- A sum over a contraction index with ONE axis is the sum over that axis' coordinate: given what the two operand
    indices are at the contraction index with coordinate k (L k and R k), the sum of products is ∑ k, lhs (L k) · rhs (R k). -/
theorem contr_sum {sl sr so : Shape} (D : DotDims sl sr so) (K : Nat) (hr : D.contr.rank = 1) (hs : D.contr.size ⟨0, by omega⟩ = K)
    (lhs : sl.Idx → EReal) (rhs : sr.Idx → EReal) (j : so.Idx) (L : Fin K → sl.Idx) (R : Fin K → sr.Idx)
    (hl : ∀ k, D.lhsIdx j ((contrEquiv1 D K hr hs).symm k) = L k) (hr' : ∀ k, D.rhsIdx j ((contrEquiv1 D K hr hs).symm k) = R k) :
    ∑ q : D.contr.Idx, lhs (D.lhsIdx j q) * rhs (D.rhsIdx j q) = ∑ k : Fin K, lhs (L k) * rhs (R k) := by
  rw [← Equiv.sum_comp (contrEquiv1 D K hr hs).symm]
  exact Finset.sum_congr rfl fun k _ => by rw [hl k, hr' k]

/-! ## Region 0's contraction: a tile of 2000 rows of x against W1

The dimension numbers contract the left operand's axis 1 with the right operand's axis 0; the left operand's axis 0 is
the result's axis 0 and the right operand's axis 1 the result's axis 1. One lemma per operand and axis. -/

theorem lhs_k0_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_k0_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_k0_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_k0_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's payload of region 0 at entry (p, q): row p of the tile of x against column q of the tile of W1 (the
    narrowing of both tiles is the identity, the accumulator is zero). -/
theorem mm0_pay_apply (x0 : Vec Ideal S2000x128 .f32) (x1 : Vec Ideal S128x64 .f32) (p : Fin 2000) (q : Fin 64) :
    k0_pay1 (F := Ideal) x0 x1 (ix2 p q) = ∑ k : Fin 128, x0 (ix2 p k) * x1 (ix2 k q) := by
  unfold k0_pay1
  simp only [matmul]
  rw [Ideal.matmul_constant_zero_apply]
  refine contr_sum dot_S2000x128_S128x64_S2000x64_1_0_0_1_n_n 128 rfl rfl _ _ _ (fun k => ix2 p k) (fun k => ix2 k q) (fun k => ?_) (fun k => ?_)
  · have hk := contrEquiv1_symm_val dot_S2000x128_S128x64_S2000x64_1_0_0_1_n_n 128 rfl rfl k
    exact funext fun a => Fin.ext (by
      match a with
      | ⟨0, _⟩ => exact lhs_k0_0 _ _
      | ⟨1, _⟩ => exact (lhs_k0_1 _ _).trans hk)
  · have hk := contrEquiv1_symm_val dot_S2000x128_S128x64_S2000x64_1_0_0_1_n_n 128 rfl rfl k
    exact funext fun a => Fin.ext (by
      match a with
      | ⟨0, _⟩ => exact (rhs_k0_0 _ _).trans hk
      | ⟨1, _⟩ => exact rhs_k0_1 _ _)

/-! ## Region 1's contraction: a tile of 2000 rows of h against W2 -/

theorem lhs_k1_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_k1_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_k1_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_k1_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The body's payload of region 1 at entry (p, q): row p of the tile of h against column q of the tile of W2 (the
    cast of the left tile's shape to itself changes nothing). -/
theorem mm1_pay_apply (x0 : Vec Ideal S2000x64 .f32) (x1 : Vec Ideal S64x64 .f32) (p : Fin 2000) (q : Fin 64) :
    k1_pay1 (F := Ideal) x0 x1 (ix2 p q) = ∑ k : Fin 64, x0 (ix2 p k) * x1 (ix2 k q) := by
  unfold k1_pay1
  simp only [matmul, shapeCast_self]
  rw [Ideal.matmul_constant_zero_apply]
  refine contr_sum dot_S2000x64_S64x64_S2000x64_1_0_0_1_n_n 64 rfl rfl _ _ _ (fun k => ix2 p k) (fun k => ix2 k q) (fun k => ?_) (fun k => ?_)
  · have hk := contrEquiv1_symm_val dot_S2000x64_S64x64_S2000x64_1_0_0_1_n_n 64 rfl rfl k
    exact funext fun a => Fin.ext (by
      match a with
      | ⟨0, _⟩ => exact lhs_k1_0 _ _
      | ⟨1, _⟩ => exact (lhs_k1_1 _ _).trans hk)
  · have hk := contrEquiv1_symm_val dot_S2000x64_S64x64_S2000x64_1_0_0_1_n_n 64 rfl rfl k
    exact funext fun a => Fin.ext (by
      match a with
      | ⟨0, _⟩ => exact (rhs_k1_0 _ _).trans hk
      | ⟨1, _⟩ => exact rhs_k1_1 _ _)

/-! ## The reference's two products, over the whole arrays -/

theorem lhs_r0_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem lhs_r0_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem rhs_r0_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem rhs_r0_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- The reference's first product x · W1 at entry (p, q). -/
theorem ref0_apply (X : S50000x128.Idx → EReal) (W : S128x64.Idx → EReal) (p : Fin 50000) (q : Fin 64) :
    Host.dotGeneral (F := Ideal) (φ₁ := .f32) (φ₂ := .f32) Cert.ReferenceIdeal.dot_S50000x128_S128x64_S50000x64_1_0_0_1_n_n none X W (ix2 p q) = ∑ k : Fin 128, X (ix2 p k) * W (ix2 k q) := by
  simp only [Host.dotGeneral]
  rw [Ideal.dotGeneral_apply]
  refine contr_sum Cert.ReferenceIdeal.dot_S50000x128_S128x64_S50000x64_1_0_0_1_n_n 128 rfl rfl _ _ _ (fun k => ix2 p k) (fun k => ix2 k q) (fun k => ?_) (fun k => ?_)
  · have hk := contrEquiv1_symm_val Cert.ReferenceIdeal.dot_S50000x128_S128x64_S50000x64_1_0_0_1_n_n 128 rfl rfl k
    exact funext fun a => Fin.ext (by
      match a with
      | ⟨0, _⟩ => exact lhs_r0_0 _ _
      | ⟨1, _⟩ => exact (lhs_r0_1 _ _).trans hk)
  · have hk := contrEquiv1_symm_val Cert.ReferenceIdeal.dot_S50000x128_S128x64_S50000x64_1_0_0_1_n_n 128 rfl rfl k
    exact funext fun a => Fin.ext (by
      match a with
      | ⟨0, _⟩ => exact (rhs_r0_0 _ _).trans hk
      | ⟨1, _⟩ => exact rhs_r0_1 _ _)

theorem lhs_r1_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
theorem lhs_r1_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
theorem rhs_r1_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
theorem rhs_r1_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl

/-- The reference's second product h · W2 at entry (p, q). -/
theorem ref1_apply (X : S50000x64.Idx → EReal) (W : S64x64.Idx → EReal) (p : Fin 50000) (q : Fin 64) :
    Host.dotGeneral (F := Ideal) (φ₁ := .f32) (φ₂ := .f32) Cert.ReferenceIdeal.dot_S50000x64_S64x64_S50000x64_1_0_0_1_n_n none X W (ix2 p q) = ∑ k : Fin 64, X (ix2 p k) * W (ix2 k q) := by
  simp only [Host.dotGeneral]
  rw [Ideal.dotGeneral_apply]
  refine contr_sum Cert.ReferenceIdeal.dot_S50000x64_S64x64_S50000x64_1_0_0_1_n_n 64 rfl rfl _ _ _ (fun k => ix2 p k) (fun k => ix2 k q) (fun k => ?_) (fun k => ?_)
  · have hk := contrEquiv1_symm_val Cert.ReferenceIdeal.dot_S50000x64_S64x64_S50000x64_1_0_0_1_n_n 64 rfl rfl k
    exact funext fun a => Fin.ext (by
      match a with
      | ⟨0, _⟩ => exact lhs_r1_0 _ _
      | ⟨1, _⟩ => exact (lhs_r1_1 _ _).trans hk)
  · have hk := contrEquiv1_symm_val Cert.ReferenceIdeal.dot_S50000x64_S64x64_S50000x64_1_0_0_1_n_n 64 rfl rfl k
    exact funext fun a => Fin.ext (by
      match a with
      | ⟨0, _⟩ => exact (rhs_r1_0 _ _).trans hk
      | ⟨1, _⟩ => exact rhs_r1_1 _ _)

/-! ## From tiles to the arrays -/

variable (V : (c : Dev nD) → (b : Ref sig .tc) → Buf (Elt Ideal) ((c : Thread nD τ).loc b))

theorem hz : (![0, 0] : Fin 2 → Nat) = fun _ => 0 := funext fun a => by fin_cases a <;> rfl

/-! ### Region 0 -/

/-- x · W1 over the whole arrays as region 0 finds them. -/
def G0 (c : Dev nD) : S50000x64.Idx → EReal :=
  mm (V c main_arg0 : S50000x128.Idx → EReal) (V c main_arg4 : S128x64.Idx → EReal)

/-- Region 0's tile indices at point t: the row tiles of x and of the output are tile t, the weight's is the one tile. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the row tile of x at point t is entry (2000 t + p, k) of x. -/
theorem iblk0_0_apply (c : Dev nD) (t : Fin cfg0.N) (p : Fin 2000) (k : Fin 128) (r : Fin 50000) (hr : r.val = 2000 * t.val + p.val) :
    (iblk0 V c 0 t : S2000x128.Idx → EReal) (ix2 p k) = (V c main_arg0 : S50000x128.Idx → EReal) (ix2 r k) := by
  obtain ⟨e0, e1, -⟩ := idx0 t
  unfold iblk0
  rw [View.read_apply]
  show (V c main_arg0 : S50000x128.Idx → EReal) _ = _
  congr 1
  funext a; apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight's one tile is the weight. -/
theorem iblk0_1_apply (c : Dev nD) (t : Fin cfg0.N) (k : Fin 128) (q : Fin 64) :
    (iblk0 V c 1 t : S128x64.Idx → EReal) (ix2 k q) = (V c main_arg4 : S128x64.Idx → EReal) (ix2 k q) := by
  obtain ⟨-, -, e0, e1, -⟩ := idx0 t
  unfold iblk0
  rw [View.read_apply]
  show (V c main_arg4 : S128x64.Idx → EReal) _ = _
  congr 1
  funext a; apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- What point t writes back is tile t of x · W1. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨-, -, -, -, e0, e1⟩ := idx0 t
  funext y
  obtain ⟨p, q, rfl⟩ : ∃ (p : Fin 2000) (q : Fin 64), y = ix2 p q := ⟨y 0, y 1, eq_ix2 y⟩
  refine (mm0_pay_apply (iblk0 V c 0 t) (iblk0 V c 1 t) p q).trans ?_
  have ht : t.val < 25 := t.isLt
  have hrow : 2000 * t.val + p.val < 50000 := by have := p.isLt; omega
  have hi : ((cfg0.win 2).blk t).view.emb (ix2 p q) = (ix2 (⟨2000 * t.val + p.val, hrow⟩ : Fin 50000) q : S50000x64.Idx) := by
    funext a; apply Fin.ext
    match a with
    | ⟨0, _⟩ => show win0_2.index t (0 : Fin 2) * 2000 + 1 * p.val = 2000 * t.val + p.val; rw [e0]; omega
    | ⟨1, _⟩ => show win0_2.index t (1 : Fin 2) * 64 + 1 * q.val = q.val; rw [e1]; omega
  show _ = G0 V c (((cfg0.win 2).blk t).view.emb (ix2 p q))
  rw [hi]
  unfold G0
  rw [mm_ix2]
  exact Finset.sum_congr rfl fun k _ => congrArg₂ (· * ·) (iblk0_0_apply V c t p k ⟨2000 * t.val + p.val, hrow⟩ rfl) (iblk0_1_apply V c t k q)

/-- An entry of the output lies in point t's tile iff its row is one of rows 2000 t … 2000 t + 1999. -/
theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- Every entry of the output is in the tile of the point its row, divided by 2000, names. -/
theorem cover0 (i : S50000x64.Idx) : ∃ t : Fin cfg0.N, (cfg0.win 2).flush t = true ∧ i ∈ ((cfg0.win 2).blk t).view.set := by
  have h0 : (i 0).val < 50000 := (i 0).isLt
  have h1 : (i 1).val < 64 := (i 1).isLt
  refine ⟨⟨(i 0).val / 2000, by show (i 0).val / 2000 < 25; omega⟩, flush0_2 _, ?_⟩
  rw [mem_blk0]
  obtain ⟨-, -, -, -, e0, e1⟩ := idx0 ⟨(i 0).val / 2000, by show (i 0).val / 2000 < 25; omega⟩
  intro a
  match a with
  | ⟨0, _⟩ => show win0_2.index _ (0 : Fin 2) * 2000 ≤ (i 0).val ∧ (i 0).val < win0_2.index _ (0 : Fin 2) * 2000 + 2000; rw [e0]; show (i 0).val / 2000 * 2000 ≤ (i 0).val ∧ (i 0).val < (i 0).val / 2000 * 2000 + 2000; omega
  | ⟨1, _⟩ => show win0_2.index _ (1 : Fin 2) * 64 ≤ (i 1).val ∧ (i 1).val < win0_2.index _ (1 : Fin 2) * 64 + 64; rw [e1]; omega

/-- After region 0 the output array holds x · W1. -/
theorem arr0_eq (c : Dev nD) : (dat0 V c).arrAt 2 cfg0.N = G0 V c :=
  (dat0 V c).arrAt_eq_of_cover 2 (G0 V c) (fun t _ => flushed0_eq V c t) cover0

/-- REGION 0: the output array ends holding the reference's first product. -/
theorem final0 (c : Dev nD) :
    (dat0 (F := Ideal) V c).arrAt 2 cfg0.N
      = Host.dotGeneral (F := Ideal) (φ₁ := .f32) (φ₂ := .f32) Cert.ReferenceIdeal.dot_S50000x128_S128x64_S50000x64_1_0_0_1_n_n none (V c main_arg0) (V c main_arg4) := by
  refine (arr0_eq V c).trans ?_
  funext i
  obtain ⟨p, q, rfl⟩ : ∃ (p : Fin 50000) (q : Fin 64), i = ix2 p q := ⟨i 0, i 1, eq_ix2 i⟩
  exact (ref0_apply _ _ p q).symm

/-! ### Region 1 -/

/-- h · W2 over the whole arrays as region 1 finds them. -/
def G1 (c : Dev nD) : S50000x64.Idx → EReal :=
  mm (V c main_v49 : S50000x64.Idx → EReal) (V c main_arg6 : S64x64.Idx → EReal)

/-- Region 1's tile indices at point t: the row tiles of h and of the output are tile t, the weight's is the one tile. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the row tile of h at point t is entry (2000 t + p, k) of h. -/
theorem iblk1_0_apply (c : Dev nD) (t : Fin cfg1.N) (p : Fin 2000) (k : Fin 64) (r : Fin 50000) (hr : r.val = 2000 * t.val + p.val) :
    (iblk1 V c 0 t : S2000x64.Idx → EReal) (ix2 p k) = (V c main_v49 : S50000x64.Idx → EReal) (ix2 r k) := by
  obtain ⟨e0, e1, -⟩ := idx1 t
  unfold iblk1
  rw [View.read_apply]
  show (V c main_v49 : S50000x64.Idx → EReal) _ = _
  congr 1
  funext a; apply Fin.ext
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

/-- The weight's one tile is the weight. -/
theorem iblk1_1_apply (c : Dev nD) (t : Fin cfg1.N) (k : Fin 64) (q : Fin 64) :
    (iblk1 V c 1 t : S64x64.Idx → EReal) (ix2 k q) = (V c main_arg6 : S64x64.Idx → EReal) (ix2 k q) := by
  obtain ⟨-, -, e0, e1, -⟩ := idx1 t
  unfold iblk1
  rw [View.read_apply]
  show (V c main_arg6 : S64x64.Idx → EReal) _ = _
  congr 1
  funext a; apply Fin.ext
  match a with
  | ⟨0, _⟩ => show win1_1.index t (0 : Fin 2) * 64 + 1 * k.val = k.val; rw [e0]; omega
  | ⟨1, _⟩ => show win1_1.index t (1 : Fin 2) * 64 + 1 * q.val = q.val; rw [e1]; omega

/-- What point t writes back is tile t of h · W2. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x64) hz]
  obtain ⟨-, -, -, -, e0, e1⟩ := idx1 t
  funext y
  obtain ⟨p, q, rfl⟩ : ∃ (p : Fin 2000) (q : Fin 64), y = ix2 p q := ⟨y 0, y 1, eq_ix2 y⟩
  refine (mm1_pay_apply (iblk1 V c 0 t) (iblk1 V c 1 t) p q).trans ?_
  have ht : t.val < 25 := t.isLt
  have hrow : 2000 * t.val + p.val < 50000 := by have := p.isLt; omega
  have hi : ((cfg1.win 2).blk t).view.emb (ix2 p q) = (ix2 (⟨2000 * t.val + p.val, hrow⟩ : Fin 50000) q : S50000x64.Idx) := by
    funext a; apply Fin.ext
    match a with
    | ⟨0, _⟩ => show win1_2.index t (0 : Fin 2) * 2000 + 1 * p.val = 2000 * t.val + p.val; rw [e0]; omega
    | ⟨1, _⟩ => show win1_2.index t (1 : Fin 2) * 64 + 1 * q.val = q.val; rw [e1]; omega
  show _ = G1 V c (((cfg1.win 2).blk t).view.emb (ix2 p q))
  rw [hi]
  unfold G1
  rw [mm_ix2]
  exact Finset.sum_congr rfl fun k _ => congrArg₂ (· * ·) (iblk1_0_apply V c t p k ⟨2000 * t.val + p.val, hrow⟩ rfl) (iblk1_1_apply V c t k q)

/-- An entry of the output lies in point t's tile iff its row is one of rows 2000 t … 2000 t + 1999. -/
theorem mem_blk1 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- Every entry of the output is in the tile of the point its row, divided by 2000, names. -/
theorem cover1 (i : S50000x64.Idx) : ∃ t : Fin cfg1.N, (cfg1.win 2).flush t = true ∧ i ∈ ((cfg1.win 2).blk t).view.set := by
  have h0 : (i 0).val < 50000 := (i 0).isLt
  have h1 : (i 1).val < 64 := (i 1).isLt
  refine ⟨⟨(i 0).val / 2000, by show (i 0).val / 2000 < 25; omega⟩, flush1_2 _, ?_⟩
  rw [mem_blk1]
  obtain ⟨-, -, -, -, e0, e1⟩ := idx1 ⟨(i 0).val / 2000, by show (i 0).val / 2000 < 25; omega⟩
  intro a
  match a with
  | ⟨0, _⟩ => show win1_2.index _ (0 : Fin 2) * 2000 ≤ (i 0).val ∧ (i 0).val < win1_2.index _ (0 : Fin 2) * 2000 + 2000; rw [e0]; show (i 0).val / 2000 * 2000 ≤ (i 0).val ∧ (i 0).val < (i 0).val / 2000 * 2000 + 2000; omega
  | ⟨1, _⟩ => show win1_2.index _ (1 : Fin 2) * 64 ≤ (i 1).val ∧ (i 1).val < win1_2.index _ (1 : Fin 2) * 64 + 64; rw [e1]; omega

/-- After region 1 the output array holds h · W2. -/
theorem arr1_eq (c : Dev nD) : (dat1 V c).arrAt 2 cfg1.N = G1 V c :=
  (dat1 V c).arrAt_eq_of_cover 2 (G1 V c) (fun t _ => flushed1_eq V c t) cover1

/-- REGION 1: the output array ends holding the reference's second product. -/
theorem final1 (c : Dev nD) :
    (dat1 (F := Ideal) V c).arrAt 2 cfg1.N
      = Host.dotGeneral (F := Ideal) (φ₁ := .f32) (φ₂ := .f32) Cert.ReferenceIdeal.dot_S50000x64_S64x64_S50000x64_1_0_0_1_n_n none (V c main_v49) (V c main_arg6) := by
  refine (arr1_eq V c).trans ?_
  funext i
  obtain ⟨p, q, rfl⟩ : ∃ (p : Fin 50000) (q : Fin 64), i = ix2 p q := ⟨i 0, i 1, eq_ix2 i⟩
  exact (ref1_apply _ _ p q).symm

end Cert.KernelIdeal.Hand

end
-- ==== Proof.KI_Val3.lean ====
/-
  Region 3, the value it leaves, at the extended reals. The region has one grid point and every window's tile is the
  whole array, so the output array after the region is what the body stores: the two-layer head
      (p · LW1 + b1) · LW2 + b2
  of the five arrays as the region finds them, p the pooled means [512,64], LW1 [64,32], b1 a [1,32] row, LW2 [32,10],
  b2 a [1,10] row. At the extended reals a change of float format is the identity, a product accumulated into zero is
  the sum over the contraction index of the operands' products, which is also what the host's product is, and a
  one-row array broadcast down 512 rows reads the row at the column whichever of the two broadcasts spells it. So the
  kernel's arithmetic is, operation for operation, the reference's last five operations: product, row added, product,
  row added. No law of arithmetic is used beyond that: the two sides are the same sums of products.
-/
import proofs.«409256_j4844723109935_1_alg».proof.Proof.KI_Reg3
import proofs.«409256_j4844723109935_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Val3

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

/-- A product into the zero accumulator, its operands passed through a change of format, is the host's product of
    the operands: at the extended reals both are the sum over the contraction index of the operands' products. -/
theorem matmul_zero_eq_dotGeneral {sl sr so : Shape} (d : DotDims sl sr so) (a : FVec Ideal sl .f32) (b : FVec Ideal sr .f32)
    (h : FTy.bits .bf16 < FTy.bits .f32) :
    matmul (F := Ideal) d none (truncf .bf16 a h) (truncf .bf16 b h) (constant (F := Ideal) so .f32 0x00000000#32)
      = Host.dotGeneral (F := Ideal) d none a b := by
  funext j
  exact (Ideal.matmul_constant_zero_apply d none (truncf .bf16 a h) (truncf .bf16 b h) j).trans
    (Ideal.dotGeneral_apply d none .single a b j).symm

/-- A one-row array broadcast down the rows is the same array whether the kernel's broadcast or the host's
    broadcast-in-dimensions (each axis to itself) spells it: both read, at (p, q), the row at (0, q). -/
theorem broadcastTo_row_eq {a b : ℕ} {α : Type} (v : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ (![0, 1] : Fin 2 → Fin 2)) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [broadcastTo_1b_ab_apply]
  refine (broadcastInDim_apply _ h' v (ix2 p q) (ix2 (0 : Fin 1) q) fun ax => ?_).symm
  match ax with
  | ⟨0, _⟩ => rfl
  | ⟨1, _⟩ =>
    show q.val = if b = 1 then 0 else q.val
    split
    · have := q.isLt; omega
    · rfl

/-- The head of five arrays, spelt as the reference spells its last five operations: the host's product of the first
    two, the third's row added down the rows, the host's product of that with the fourth, the fifth's row added. -/
abbrev head3 (a0 : Vec Ideal S512x64 .f32) (a1 : Vec Ideal S64x32 .f32) (a2 : Vec Ideal S1x32 .f32)
    (a3 : Vec Ideal S32x10 .f32) (a4 : Vec Ideal S1x10 .f32) : Vec Ideal S512x10 .f32 :=
  addf (Host.dotGeneral (F := Ideal) (φ₁ := .f32) (φ₂ := .f32) Cert.ReferenceIdeal.dot_S512x32_S32x10_S512x10_1_0_0_1_n_n none
      (addf (Host.dotGeneral (F := Ideal) (φ₁ := .f32) (φ₂ := .f32) Cert.ReferenceIdeal.dot_S512x64_S64x32_S512x32_1_0_0_1_n_n none a0 a1)
            (broadcastInDim Cert.ReferenceIdeal.S512x32 ![0, 1] Cert.ReferenceIdeal.Facts₀.bcast_S1x32_S512x32_0_1 a2))
      a3)
    (broadcastInDim Cert.ReferenceIdeal.S512x10 ![0, 1] Cert.ReferenceIdeal.Facts₀.bcast_S1x10_S512x10_0_1 a4)

/-- The body's arithmetic at the extended reals is that head of what it loaded: the casts of a shape to itself and
    the changes of format drop out, each product into zero is the host's product, each row broadcast the host's; the
    two programs' records of the contraction (axis 1 against axis 0, no batch axis) are the same record. -/
theorem k3_pay1_eq (x0 : Vec Ideal S512x64 .f32) (x1 : Vec Ideal S64x32 .f32) (x2 : Vec Ideal S1x32 .f32)
    (x3 : Vec Ideal S32x10 .f32) (x4 : Vec Ideal S1x10 .f32) :
    k3_pay1 (F := Ideal) x0 x1 x2 x3 x4 = head3 x0 x1 x2 x3 x4 := by
  unfold k3_pay1
  dsimp only
  rw [shapeCast_self, shapeCast_self, shapeCast_self]
  rw [matmul_zero_eq_dotGeneral, broadcastTo_row_eq x2 _ Cert.ReferenceIdeal.Facts₀.bcast_S1x32_S512x32_0_1,
    matmul_zero_eq_dotGeneral, broadcastTo_row_eq x4 _ Cert.ReferenceIdeal.Facts₀.bcast_S1x10_S512x10_0_1]
  rfl

variable (V : (c : Dev nD) → (b : Ref sig .tc) → Buf (Elt Ideal) ((c : Thread nD τ).loc b))

/-- Both offsets of every rectangle of the body are zero. -/
theorem hz3 : (![0, 0] : Fin 2 → Nat) = fun _ => 0 := funext fun a => by fin_cases a <;> rfl

/-- Window 0's tile is its whole array: the tile's index on each axis is 0, so an element of the tile sits in the
    array at its own coordinates. -/
theorem tile3_0 (c : Dev nD) (t : Fin cfg3.N) : (iblk3 (F := Ideal) V c 0 t : Vec Ideal S512x64 .f32) = V c main_v77 := by
  funext y
  show V c main_v77 (((cfg3.win 0).blk t).view.emb y) = V c main_v77 y
  refine congrArg (V c main_v77) (funext fun a => Fin.ext ?_)
  match a with
  | ⟨0, _⟩ =>
    show win3_0.index t (0 : Fin 2) * 512 + 1 * (y 0).val = (y 0).val
    rw [show win3_0.index t (0 : Fin 2) = 0 from rfl]; omega
  | ⟨1, _⟩ =>
    show win3_0.index t (1 : Fin 2) * 64 + 1 * (y 1).val = (y 1).val
    rw [show win3_0.index t (1 : Fin 2) = 0 from rfl]; omega

/-- Window 1's tile is its whole array: the tile's index on each axis is 0, so an element of the tile sits in the
    array at its own coordinates. -/
theorem tile3_1 (c : Dev nD) (t : Fin cfg3.N) : (iblk3 (F := Ideal) V c 1 t : Vec Ideal S64x32 .f32) = V c main_arg8 := by
  funext y
  show V c main_arg8 (((cfg3.win 1).blk t).view.emb y) = V c main_arg8 y
  refine congrArg (V c main_arg8) (funext fun a => Fin.ext ?_)
  match a with
  | ⟨0, _⟩ =>
    show win3_1.index t (0 : Fin 2) * 64 + 1 * (y 0).val = (y 0).val
    rw [show win3_1.index t (0 : Fin 2) = 0 from rfl]; omega
  | ⟨1, _⟩ =>
    show win3_1.index t (1 : Fin 2) * 32 + 1 * (y 1).val = (y 1).val
    rw [show win3_1.index t (1 : Fin 2) = 0 from rfl]; omega

/-- Window 2's tile is its whole array: the tile's index on each axis is 0, so an element of the tile sits in the
    array at its own coordinates. -/
theorem tile3_2 (c : Dev nD) (t : Fin cfg3.N) : (iblk3 (F := Ideal) V c 2 t : Vec Ideal S1x32 .f32) = V c main_v78 := by
  funext y
  show V c main_v78 (((cfg3.win 2).blk t).view.emb y) = V c main_v78 y
  refine congrArg (V c main_v78) (funext fun a => Fin.ext ?_)
  match a with
  | ⟨0, _⟩ =>
    show win3_2.index t (0 : Fin 2) * 1 + 1 * (y 0).val = (y 0).val
    rw [show win3_2.index t (0 : Fin 2) = 0 from rfl]; omega
  | ⟨1, _⟩ =>
    show win3_2.index t (1 : Fin 2) * 32 + 1 * (y 1).val = (y 1).val
    rw [show win3_2.index t (1 : Fin 2) = 0 from rfl]; omega

/-- Window 3's tile is its whole array: the tile's index on each axis is 0, so an element of the tile sits in the
    array at its own coordinates. -/
theorem tile3_3 (c : Dev nD) (t : Fin cfg3.N) : (iblk3 (F := Ideal) V c 3 t : Vec Ideal S32x10 .f32) = V c main_arg10 := by
  funext y
  show V c main_arg10 (((cfg3.win 3).blk t).view.emb y) = V c main_arg10 y
  refine congrArg (V c main_arg10) (funext fun a => Fin.ext ?_)
  match a with
  | ⟨0, _⟩ =>
    show win3_3.index t (0 : Fin 2) * 32 + 1 * (y 0).val = (y 0).val
    rw [show win3_3.index t (0 : Fin 2) = 0 from rfl]; omega
  | ⟨1, _⟩ =>
    show win3_3.index t (1 : Fin 2) * 10 + 1 * (y 1).val = (y 1).val
    rw [show win3_3.index t (1 : Fin 2) = 0 from rfl]; omega

/-- Window 4's tile is its whole array: the tile's index on each axis is 0, so an element of the tile sits in the
    array at its own coordinates. -/
theorem tile3_4 (c : Dev nD) (t : Fin cfg3.N) : (iblk3 (F := Ideal) V c 4 t : Vec Ideal S1x10 .f32) = V c main_v79 := by
  funext y
  show V c main_v79 (((cfg3.win 4).blk t).view.emb y) = V c main_v79 y
  refine congrArg (V c main_v79) (funext fun a => Fin.ext ?_)
  match a with
  | ⟨0, _⟩ =>
    show win3_4.index t (0 : Fin 2) * 1 + 1 * (y 0).val = (y 0).val
    rw [show win3_4.index t (0 : Fin 2) = 0 from rfl]; omega
  | ⟨1, _⟩ =>
    show win3_4.index t (1 : Fin 2) * 10 + 1 * (y 1).val = (y 1).val
    rw [show win3_4.index t (1 : Fin 2) = 0 from rfl]; omega

/-- WHAT THE POINT WRITES BACK is the (whole-array) tile of the head of the five arrays as the region finds them. -/
theorem flushed3_eq (c : Dev nD) (t : Fin cfg3.N) :
    (dat3 (F := Ideal) V c).flushed 5 t
      = ((cfg3.win 5).blk t).view.read (Elt Ideal) (head3 (V c main_v77) (V c main_arg8) (V c main_v78) (V c main_arg10) (V c main_v79)) := by
  show (cfg3.win 5).cut (grid3.coords t) ((dat3 (F := Ideal) V c).after 5 t) = _
  rw [after3_5]
  unfold out3_5
  rw [View.canon_unit_zero hz3]
  simp only [View.ld_unit_zero (S := S512x64) hz3, View.ld_unit_zero (S := S64x32) hz3, View.ld_unit_zero (S := S1x32) hz3,
    View.ld_unit_zero (S := S32x10) hz3, View.ld_unit_zero (S := S1x10) hz3]
  have e : k3_pay1 (F := Ideal) (iblk3 V c 0 t) (iblk3 V c 1 t) (iblk3 V c 2 t) (iblk3 V c 3 t) (iblk3 V c 4 t)
      = head3 (V c main_v77) (V c main_arg8) (V c main_v78) (V c main_arg10) (V c main_v79) :=
    (k3_pay1_eq (iblk3 V c 0 t) (iblk3 V c 1 t) (iblk3 V c 2 t) (iblk3 V c 3 t) (iblk3 V c 4 t)).trans
      (by rw [tile3_0 V c t, tile3_1 V c t, tile3_2 V c t, tile3_3 V c t, tile3_4 V c t])
  rw [e]
  generalize head3 (V c main_v77) (V c main_arg8) (V c main_v78) (V c main_arg10) (V c main_v79) = G
  funext j
  show G ((win3 5).xinj (grid3.coords t) j) = G (((cfg3.win 5).blk t).view.emb j)
  refine congrArg G (funext fun a => Fin.ext ?_)
  match a with
  | ⟨0, _⟩ =>
    show (j 0).val = win3_5.index t (0 : Fin 2) * 512 + 1 * (j 0).val
    rw [show win3_5.index t (0 : Fin 2) = 0 from rfl]; omega
  | ⟨1, _⟩ =>
    show (j 1).val = win3_5.index t (1 : Fin 2) * 10 + 1 * (j 1).val
    rw [show win3_5.index t (1 : Fin 2) = 0 from rfl]; omega

/-- Every index of the output array is in the point's tile: the tile is the whole array. -/
theorem mem_blk3 (t : Fin cfg3.N) (i : S512x10.Idx) : i ∈ ((cfg3.win 5).blk t).view.set := by
  show i ∈ ((View.whole main_v80).slice (win3_5.rect t)).set
  rw [View.set_slice_whole, Rect.mem_set_unit]
  intro a
  match a with
  | ⟨0, _⟩ =>
    show win3_5.index t (0 : Fin 2) * 512 ≤ (i 0).val ∧ (i 0).val < win3_5.index t (0 : Fin 2) * 512 + 512
    rw [show win3_5.index t (0 : Fin 2) = 0 from rfl]
    have h : (i 0).val < 512 := (i 0).isLt
    omega
  | ⟨1, _⟩ =>
    show win3_5.index t (1 : Fin 2) * 10 ≤ (i 1).val ∧ (i 1).val < win3_5.index t (1 : Fin 2) * 10 + 10
    rw [show win3_5.index t (1 : Fin 2) = 0 from rfl]
    have h : (i 1).val < 10 := (i 1).isLt
    omega

end Cert.KernelIdeal.Hand.Val3

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- THE OUTPUT ARRAY after region 3: the head of the five arrays as the region finds them, (p · LW1 + b1) · LW2 + b2,
    in the reference's spelling of its last five operations. The one point's tile covers the array and what the point
    writes back is that tile of the head. -/
theorem final3 (c : Dev nD) :
    (dat3 (F := Ideal) V c).arrAt 5 cfg3.N
      = addf (Host.dotGeneral (F := Ideal) (φ₁ := .f32) (φ₂ := .f32) Cert.ReferenceIdeal.dot_S512x32_S32x10_S512x10_1_0_0_1_n_n none
            (addf (Host.dotGeneral (F := Ideal) (φ₁ := .f32) (φ₂ := .f32) Cert.ReferenceIdeal.dot_S512x64_S64x32_S512x32_1_0_0_1_n_n none (V c main_v77) (V c main_arg8))
                  (broadcastInDim Cert.ReferenceIdeal.S512x32 ![0, 1] Cert.ReferenceIdeal.Facts₀.bcast_S1x32_S512x32_0_1 (V c main_v78)))
            (V c main_arg10))
          (broadcastInDim Cert.ReferenceIdeal.S512x10 ![0, 1] Cert.ReferenceIdeal.Facts₀.bcast_S1x10_S512x10_0_1 (V c main_v79)) :=
  (dat3 (F := Ideal) V c).arrAt_eq_of_cover 5
    (Val3.head3 (V c main_v77) (V c main_arg8) (V c main_v78) (V c main_arg10) (V c main_v79))
    (fun t _ => Val3.flushed3_eq V c t) (fun i => ⟨t3_0, flush3_5 t3_0, Val3.mem_blk3 t3_0 i⟩)

end Cert.KernelIdeal.Hand

end
-- ==== Proof.KI_Arr2.lean ====
/-
  Region 2's arrays. The pooled sums' array, a single tile that is the whole 512 × 64 array, is written back at the
  last of the 25 points only, so after the region it holds the running sum after point 24. The two input tiles at
  point t are rows 2000·t … 2000·t + 1999 of the column of graph ids and of the node features. Generic in the float
  values.
-/
import proofs.«409256_j4844723109935_1_alg».proof.Proof.KI_Reg2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The index maps of the two input windows at every point of the grid: the row-block index is the point, the
    column-block index is 0. -/
theorem arr2_idx_in : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The output window's block index is 0 on both axes at every point: its one tile starts at the array's origin. -/
theorem arr2_idx_out : ∀ t : Fin cfg2.N, win2_2.index t (0 : Fin 2) = 0 ∧ win2_2.index t (1 : Fin 2) = 0 :=
  (by decide +kernel : ∀ t : Fin grid2.N, _)

/-- Contents of the output tile, as the write-back takes them, are those contents read back through the tile as a
    part of the array: the tile is not cut, and a tile's coordinate on an axis is block index × size + 1 × the
    coordinate inside the tile, here 0 · 512 + y₀ and 0 · 64 + y₁. -/
theorem arr2_cut_out (t : Fin cfg2.N) (X : Vec F S512x64 .f32) :
    (cfg2.win 2).cut (grid2.coords t) X = ((cfg2.win 2).blk t).view.read (Elt F) X := by
  obtain ⟨e0, e1⟩ := arr2_idx_out t
  funext y
  rw [View.read_apply]
  show X ((cfg2.win 2).xinj (grid2.coords t) y) = X (((cfg2.win 2).blk t).view.emb y)
  refine congrArg X (funext fun a => Fin.ext ?_)
  match a with
  | ⟨0, _⟩ => show (y 0).val = win2_2.index t (0 : Fin 2) * 512 + 1 * (y 0).val; omega
  | ⟨1, _⟩ => show (y 1).val = win2_2.index t (1 : Fin 2) * 64 + 1 * (y 1).val; omega

/-- Every index of the 512 × 64 array lies in the output tile of any point: on each axis 0 · size ≤ i < 0 · size + size. -/
theorem arr2_mem_out (t : Fin cfg2.N) (i : S512x64.Idx) : i ∈ ((View.whole main_v68).slice (win2_2.rect t)).set := by
  obtain ⟨e0, e1⟩ := arr2_idx_out t
  rw [View.set_slice_whole, Rect.mem_set_unit]
  intro a
  match a with
  | ⟨0, _⟩ =>
    show win2_2.index t (0 : Fin 2) * 512 ≤ (i 0).val ∧ (i 0).val < win2_2.index t (0 : Fin 2) * 512 + 512
    have := idx2_lt0 i; omega
  | ⟨1, _⟩ =>
    show win2_2.index t (1 : Fin 2) * 64 ≤ (i 1).val ∧ (i 1).val < win2_2.index t (1 : Fin 2) * 64 + 64
    have := idx2_lt1 i; omega

/-- After the region the pooled sums' array holds the running sum after the last point: that point's tile is the
    whole array (block index 0 on both axes, sizes 512 and 64), it is the only point written back, and it covers
    every index. -/
theorem final2_arr (c : Dev nD) :
    (dat2 V c).arrAt 2 cfg2.N = acc2 V c 24 (by have h25 : cfg2.N = 25 := N_2; omega) := by
  have h25 : cfg2.N = 25 := N_2
  have hb : 24 < cfg2.N := by omega
  refine (dat2 V c).arrAt_eq_of_cover 2 (acc2 V c 24 hb) (fun t hf => ?_) (fun i => ?_)
  · have h24 : t.val = 24 := by have := (flush2_2 t).mp hf; have := t.isLt; omega
    obtain rfl : t = ⟨24, hb⟩ := Fin.ext h24
    show (cfg2.win 2).cut (grid2.coords ⟨24, hb⟩) ((dat2 V c).after 2 ⟨24, hb⟩) = _
    rw [after2_2]
    exact arr2_cut_out ⟨24, hb⟩ (acc2 V c 24 hb)
  · exact ⟨⟨24, hb⟩, (flush2_2 _).mpr rfl, arr2_mem_out ⟨24, hb⟩ i⟩

/-- The tile of graph ids at point t reads the column of ids at row 2000·t + r. -/
theorem iblk2_0_apply (c : Dev nD) (t : Fin cfg2.N) (r : Fin 2000) :
    iblk2 V c 0 t (ix2 r 0) = (V c main_v67 : S50000x1.Idx → Elt F .i32) (ix2 ⟨t.val * 2000 + r.val, by have := t.isLt; have h25 : cfg2.N = 25 := N_2; omega⟩ 0) := by
  obtain ⟨e0, e1, -, -⟩ := arr2_idx_in t
  unfold iblk2
  show V c main_v67 (((cfg2.win 0).blk t).view.emb (ix2 r 0)) = V c main_v67 _
  refine congrArg (V c main_v67) (funext fun a => Fin.ext ?_)
  match a with
  | ⟨0, _⟩ => show win2_0.index t (0 : Fin 2) * 2000 + 1 * r.val = t.val * 2000 + r.val; omega
  | ⟨1, _⟩ => show win2_0.index t (1 : Fin 2) * 1 + 1 * 0 = 0; omega

/-- The tile of node features at point t reads the features at row 2000·t + r, column j. -/
theorem iblk2_1_apply (c : Dev nD) (t : Fin cfg2.N) (r : Fin 2000) (j : Fin 64) :
    iblk2 V c 1 t (ix2 r j) = (V c main_v66 : S50000x64.Idx → Elt F .f32) (ix2 ⟨t.val * 2000 + r.val, by have := t.isLt; have h25 : cfg2.N = 25 := N_2; omega⟩ j) := by
  obtain ⟨-, -, e0, e1⟩ := arr2_idx_in t
  unfold iblk2
  show V c main_v66 (((cfg2.win 1).blk t).view.emb (ix2 r j)) = V c main_v66 _
  refine congrArg (V c main_v66) (funext fun a => Fin.ext ?_)
  match a with
  | ⟨0, _⟩ => show win2_1.index t (0 : Fin 2) * 2000 + 1 * r.val = t.val * 2000 + r.val; omega
  | ⟨1, _⟩ => show win2_1.index t (1 : Fin 2) * 64 + 1 * j.val = j.val; omega

end Cert.KernelIdeal.Hand

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.KI_Val2.lean ====
/-
  The pooling of node features into graphs. The kernel accumulates, tile by tile over 25 tiles of 2000 nodes, the
  product of the transposed one-hot matrix of a tile's graph numbers with the tile's features; the reference adds
  every node's feature row onto the row of its graph number, dropping the rows whose number is outside [0, 512).
  At the ideal values (extended reals, exact operations) the 25-step accumulation from zero is that scatter:
  element (g, j) of either is the sum, over the nodes whose graph number is g, of the node's feature j.
-/
import proofs.«409256_j4844723109935_1_alg».proof.Proof.Gen.KernelIdeal.Skeleton
import proofs.«409256_j4844723109935_1_alg».proof.ReferenceIdeal
import proofs.«409256_j4844723109935_1_alg».proof.Proof.LibScatterRows
import Idealize.ShloMosaic.Lib.ValueIdx
import Idealize.ShloMosaic.Lib.Pipeline.Value
import Idealize.ShloMosaic.Lib.IdealHost
import Idealize.ShloMosaic.PureOps.Ideal.Laws
import Idealize.ShloMosaic.Lib.StableHlo.Predicate
import Mathlib.Data.Fintype.BigOperators
import Mathlib.Algebra.BigOperators.Group.Finset.Basic

set_option maxRecDepth 16384

open scoped BigOperators

noncomputable section

namespace Cert.KernelIdeal.Hand

open Cert.KernelIdeal Cert.KernelIdeal.Gen
open Idealize.ShloMosaic Idealize.ShloMosaic.ValueIdx

/-- The reset payload is zero everywhere. -/
theorem pay1_apply (g : Fin 512) (j : Fin 64) : (k2_pay1 (F := Ideal)) (ix2 g j) = 0 := by
  unfold k2_pay1
  rw [shapeCast_self]
  exact Ideal.ofBits_zero_f32

/-! The one-hot product's dimension numbers contract the row axis of both operands: at output element (g, j) and
    contraction position r the left operand is read at (r, g) and the right at (r, j). -/

theorem poolDot_lhs_0 (i : S512x64.Idx) (q : dot_S2000x512_S2000x64_S512x64_0_0_1_1_n_n.contr.Idx) :
    (dot_S2000x512_S2000x64_S512x64_0_0_1_1_n_n.lhsIdx i q 0).val = (q ⟨0, by decide⟩).val :=
  dot_S2000x512_S2000x64_S512x64_0_0_1_1_n_n.lhsIdx_val_of_single rfl i q
theorem poolDot_lhs_1 (i : S512x64.Idx) (q : dot_S2000x512_S2000x64_S512x64_0_0_1_1_n_n.contr.Idx) :
    (dot_S2000x512_S2000x64_S512x64_0_0_1_1_n_n.lhsIdx i q 1).val = (i 0).val := by
  unfold DotDims.lhsIdx
  rw [dif_neg (show ¬(1 : Fin S2000x512.rank) ∈ dot_S2000x512_S2000x64_S512x64_0_0_1_1_n_n.lhsBatch by decide), dif_pos (show (1 : Fin S2000x512.rank) ∈ dot_S2000x512_S2000x64_S512x64_0_0_1_1_n_n.lhsNonContracting by decide)]
  rfl
theorem poolDot_rhs_0 (i : S512x64.Idx) (q : dot_S2000x512_S2000x64_S512x64_0_0_1_1_n_n.contr.Idx) :
    (dot_S2000x512_S2000x64_S512x64_0_0_1_1_n_n.rhsIdx i q 0).val = (q ⟨0, by decide⟩).val :=
  dot_S2000x512_S2000x64_S512x64_0_0_1_1_n_n.rhsIdx_val_of_single rfl i q
theorem poolDot_rhs_1 (i : S512x64.Idx) (q : dot_S2000x512_S2000x64_S512x64_0_0_1_1_n_n.contr.Idx) :
    (dot_S2000x512_S2000x64_S512x64_0_0_1_1_n_n.rhsIdx i q 1).val = (i 1).val := by
  unfold DotDims.rhsIdx
  rw [dif_neg (show ¬(1 : Fin S2000x64.rank) ∈ dot_S2000x512_S2000x64_S512x64_0_0_1_1_n_n.rhsBatch by decide), dif_pos (show (1 : Fin S2000x64.rank) ∈ dot_S2000x512_S2000x64_S512x64_0_0_1_1_n_n.rhsNonContracting by decide)]
  rfl

/-- The comparison bit of two words, widened to a word and read signed, is the extended real one when the words
    are equal and zero when they are not. -/
theorem onehot_word (x y : BitVec 32) :
    (FloatOps.sitofp (F := Ideal) .f32 ((IntOp.cmpi .eq x y).setWidth 32) : EReal) = if x = y then 1 else 0 := by
  by_cases hxy : x = y
  · rw [if_pos hxy, StableHlo.Predicate.cmpi_eq_iff.mpr hxy]
    show ((((BitVec.setWidth 32 1#1 : BitVec 32).toInt : ℝ)) : EReal) = 1
    rw [show (BitVec.setWidth 32 1#1 : BitVec 32).toInt = 1 by decide]
    simp
  · rw [if_neg hxy]
    have h0 : IntOp.cmpi .eq x y = 0#1 := eq_zero_of_ne_one (fun h1 => hxy (StableHlo.Predicate.cmpi_eq_iff.mp h1))
    rw [h0]
    show ((((BitVec.setWidth 32 0#1 : BitVec 32).toInt : ℝ)) : EReal) = 0
    rw [show (BitVec.setWidth 32 0#1 : BitVec 32).toInt = 0 by decide]
    simp

/-- The accumulate payload at element (g, j): the accumulator there plus the sum of feature j over the rows of the
    tile whose graph number is the word g. -/
theorem pay2_apply (b : Vec Ideal S2000x1 .i32) (h : Vec Ideal S2000x64 .f32) (a : Vec Ideal S512x64 .f32)
    (g : Fin 512) (j : Fin 64) :
    k2_pay2 (F := Ideal) b h a (ix2 g j)
      = a (ix2 g j) + ∑ r : Fin 2000, (if b (ix2 r 0) = BitVec.ofNat 32 g.val then h (ix2 r j) else 0) := by
  unfold k2_pay2
  rw [shapeCast_self, shapeCast_self, shapeCast_self, addf_apply]
  simp only [matmul]
  rw [Ideal.matmul_constant_zero_apply]
  congr 1
  rw [← Equiv.sum_comp (contrEquiv1 dot_S2000x512_S2000x64_S512x64_0_0_1_1_n_n 2000 rfl rfl).symm]
  refine Finset.sum_congr rfl fun r _ => ?_
  have hk := contrEquiv1_symm_val dot_S2000x512_S2000x64_S512x64_0_0_1_1_n_n 2000 rfl rfl r
  have el : dot_S2000x512_S2000x64_S512x64_0_0_1_1_n_n.lhsIdx (ix2 g j) ((contrEquiv1 dot_S2000x512_S2000x64_S512x64_0_0_1_1_n_n 2000 rfl rfl).symm r) = (ix2 r g : S2000x512.Idx) := funext fun a => Fin.ext (by
    match a with
    | ⟨0, _⟩ => exact (poolDot_lhs_0 _ _).trans hk
    | ⟨1, _⟩ => exact poolDot_lhs_1 _ _)
  have er : dot_S2000x512_S2000x64_S512x64_0_0_1_1_n_n.rhsIdx (ix2 g j) ((contrEquiv1 dot_S2000x512_S2000x64_S512x64_0_0_1_1_n_n 2000 rfl rfl).symm r) = (ix2 r j : S2000x64.Idx) := funext fun a => Fin.ext (by
    match a with
    | ⟨0, _⟩ => exact (poolDot_rhs_0 _ _).trans hk
    | ⟨1, _⟩ => exact poolDot_rhs_1 _ _)
  rw [el, er, truncf_apply, truncf_apply, sitofp_apply, extui_apply]
  have hb : broadcastTo S2000x512 b broadcasts_S2000x1_S2000x512 (ix2 r g) = b (ix2 r 0) :=
    broadcastTo_apply b broadcasts_S2000x1_S2000x512 (ix2 r g) (ix2 r 0) (fun a => by
      match a with
      | ⟨0, _⟩ => rfl
      | ⟨1, _⟩ => rfl)
  have hi : iota Kind.tc S2000x512 32 [1] iota_S2000x512_d1_w32 (ix2 r g) = BitVec.ofNat 32 g.val :=
    iota_single_apply .tc S2000x512 32 1 iota_S2000x512_d1_w32 (ix2 r g)
  show FloatOps.sitofp (F := Ideal) .f32 (BitVec.setWidth 32 (IntOp.cmpi .eq (broadcastTo S2000x512 b broadcasts_S2000x1_S2000x512 (ix2 r g)) (iota Kind.tc S2000x512 32 [1] iota_S2000x512_d1_w32 (ix2 r g)))) * h (ix2 r j) = _
  rw [hb, hi, onehot_word]
  by_cases hc : b (ix2 r 0) = BitVec.ofNat 32 g.val
  · rw [if_pos hc, if_pos hc, one_mul]
  · rw [if_neg hc, if_neg hc, zero_mul]

/-- A natural below 512 as a word, read signed, is itself. -/
theorem toInt_ofNat_small (g : ℕ) (hg : g < 512) : (BitVec.ofNat 32 g).toInt = (g : ℤ) := by
  rw [BitVec.toInt_eq_toNat_cond, BitVec.toNat_ofNat]
  have hm : g % 2 ^ 32 = g := Nat.mod_eq_of_lt (by omega)
  rw [hm, if_pos (by omega)]

/-- A word is the word of a graph number below 512 exactly when, read signed, it is that number. -/
theorem word_eq_iff (w : BitVec 32) (g : ℕ) (hg : g < 512) : w = BitVec.ofNat 32 g ↔ w.toInt = (g : ℤ) :=
  ⟨fun h => h ▸ toInt_ofNat_small g hg, fun h => BitVec.eq_of_toInt_eq (h.trans (toInt_ofNat_small g hg).symm)⟩

/-! ## The 25-step accumulation is a sum over the nodes -/

/-- Node e's contribution to element (g, j) of the pooled features: its feature j when its graph number is the
    word g, zero otherwise (and zero past the last node). -/
def poolContrib (bcol : IVec S50000x1 32) (h2 : FVec Ideal S50000x64 .f32) (g : Fin 512) (j : Fin 64) (e : ℕ) : EReal :=
  if he : e < 50000 then (if bcol (ix2 ⟨e, he⟩ 0) = BitVec.ofNat 32 g.val then h2 (ix2 ⟨e, he⟩ j) else 0) else 0

/-- The masked sum over the rows of tile t is the sum of the contributions of the tile's 2000 nodes. -/
theorem tile_sum (bcol : IVec S50000x1 32) (h2 : FVec Ideal S50000x64 .f32) (g : Fin 512) (j : Fin 64)
    (b : Vec Ideal S2000x1 .i32) (h : Vec Ideal S2000x64 .f32) (t : ℕ) (ht : t < 25)
    (hb : ∀ r : Fin 2000, b (ix2 r 0) = bcol (ix2 ⟨t * 2000 + r.val, by omega⟩ 0))
    (hh : ∀ r : Fin 2000, h (ix2 r j) = h2 (ix2 ⟨t * 2000 + r.val, by omega⟩ j)) :
    (∑ r : Fin 2000, (if b (ix2 r 0) = BitVec.ofNat 32 g.val then h (ix2 r j) else 0))
      = ∑ r ∈ Finset.range 2000, poolContrib bcol h2 g j (t * 2000 + r) := by
  rw [← Fin.sum_univ_eq_sum_range (fun r => poolContrib bcol h2 g j (t * 2000 + r)) 2000]
  refine Finset.sum_congr rfl fun r _ => ?_
  have hlt : t * 2000 + r.val < 50000 := by have := r.isLt; omega
  unfold poolContrib
  rw [dif_pos hlt, hb r, hh r]

/-- After step n the accumulator's element (g, j) is the sum of the contributions of the first (n + 1) · 2000
    nodes. -/
theorem fold_apply (bcol : IVec S50000x1 32) (h2 : FVec Ideal S50000x64 .f32)
    (acc : (n : ℕ) → n < 25 → Vec Ideal S512x64 .f32)
    (bt : Fin 25 → Vec Ideal S2000x1 .i32) (ht : Fin 25 → Vec Ideal S2000x64 .f32)
    (hbt : ∀ (t : Fin 25) (r : Fin 2000), bt t (ix2 r 0) = bcol (ix2 ⟨t.val * 2000 + r.val, by omega⟩ 0))
    (hht : ∀ (t : Fin 25) (r : Fin 2000) (j : Fin 64), ht t (ix2 r j) = h2 (ix2 ⟨t.val * 2000 + r.val, by omega⟩ j))
    (h0 : acc 0 (by decide) = k2_pay2 (F := Ideal) (bt 0) (ht 0) (k2_pay1 (F := Ideal)))
    (hs : ∀ (n : ℕ) (h : n + 1 < 25), acc (n + 1) h = k2_pay2 (F := Ideal) (bt ⟨n + 1, h⟩) (ht ⟨n + 1, h⟩) (acc n (Nat.lt_of_succ_lt h)))
    (g : Fin 512) (j : Fin 64) :
    ∀ (n : ℕ) (hn : n < 25), acc n hn (ix2 g j) = ∑ e ∈ Finset.range ((n + 1) * 2000), poolContrib bcol h2 g j e := by
  intro n
  induction n with
  | zero =>
    intro hn
    rw [h0, pay2_apply, pay1_apply, zero_add,
      tile_sum bcol h2 g j (bt 0) (ht 0) 0 (by decide) (fun r => hbt 0 r) (fun r => hht 0 r j)]
    simp only [Nat.zero_mul, Nat.zero_add, Nat.one_mul]
  | succ n ih =>
    intro hn
    rw [hs n hn, pay2_apply, ih (Nat.lt_of_succ_lt hn),
      tile_sum bcol h2 g j (bt ⟨n + 1, hn⟩) (ht ⟨n + 1, hn⟩) (n + 1) hn (fun r => hbt ⟨n + 1, hn⟩ r) (fun r => hht ⟨n + 1, hn⟩ r j),
      show (n + 1 + 1) * 2000 = (n + 1) * 2000 + 2000 by omega, Finset.sum_range_add]

/-! ## The reference's scatter is the same sum -/

/-- The 25-step accumulation from zero is the reference's accumulating scatter of the feature rows along the
    column of graph numbers onto zeros. -/
theorem pool_final [Cert.ReferenceIdeal.Facts₀]
    (bcol : IVec S50000x1 32) (h2 : FVec Ideal S50000x64 .f32)
    (acc : (n : ℕ) → n < 25 → Vec Ideal S512x64 .f32)
    (bt : Fin 25 → Vec Ideal S2000x1 .i32) (ht : Fin 25 → Vec Ideal S2000x64 .f32)
    (hbt : ∀ (t : Fin 25) (r : Fin 2000), bt t (ix2 r 0) = bcol (ix2 ⟨t.val * 2000 + r.val, by omega⟩ 0))
    (hht : ∀ (t : Fin 25) (r : Fin 2000) (j : Fin 64), ht t (ix2 r j) = h2 (ix2 ⟨t.val * 2000 + r.val, by omega⟩ j))
    (h0 : acc 0 (by decide) = k2_pay2 (F := Ideal) (bt 0) (ht 0) (k2_pay1 (F := Ideal)))
    (hs : ∀ (n : ℕ) (h : n + 1 < 25), acc (n + 1) h = k2_pay2 (F := Ideal) (bt ⟨n + 1, h⟩) (ht ⟨n + 1, h⟩) (acc n (Nat.lt_of_succ_lt h))) :
    acc 24 (by decide)
      = Host.scatterAdd (F := Ideal) Cert.ReferenceIdeal.scatter_S512x64_S50000x1_S50000x64_1_0_0_1
          (broadcastInDim Cert.ReferenceIdeal.S512x64 ![] Cert.ReferenceIdeal.Facts₀.bcast_S_S512x64 (constant Cert.ReferenceIdeal.S_ .f32 0x00000000#32)) bcol h2 := by
  funext i
  obtain ⟨g, j, rfl⟩ : ∃ (g : Fin 512) (j : Fin 64), i = ix2 g j := ⟨i 0, i 1, eq_ix2 i⟩
  rw [fold_apply bcol h2 acc bt ht hbt hht h0 hs g j 24 (by decide)]
  unfold Host.scatterAdd
  rw [Ideal.hostScatterAdd_def]
  refine Eq.trans ?_ (Cert.ScatterRows.hostScatterAdd_rows Cert.ReferenceIdeal.scatter_S512x64_S50000x1_S50000x64_1_0_0_1
    rfl rfl rfl rfl _ bcol h2 g j).symm
  rw [broadcastInDim_scalar_apply, constant_apply, Ideal.ofBits_zero_f32, zero_add,
    show (24 + 1) * 2000 = 50000 from rfl, ← Fin.sum_univ_eq_sum_range]
  refine Finset.sum_congr rfl fun e _ => ?_
  have hP : (StableHlo.Predicate.ixP e : (⟨2, ![50000, 1]⟩ : Shape).Idx) = ix2 e 0 := funext fun a => by
    match a with
    | ⟨0, _⟩ => rfl
    | ⟨1, _⟩ => rfl
  unfold poolContrib
  rw [dif_pos e.isLt, hP]
  by_cases hc : bcol (ix2 e 0) = BitVec.ofNat 32 g.val
  · rw [if_pos hc, if_pos ((word_eq_iff _ g.val g.isLt).mp hc)]
  · rw [if_neg hc, if_neg (fun hz => hc ((word_eq_iff _ g.val g.isLt).mpr hz))]

end Cert.KernelIdeal.Hand

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KI_Value.lean ====
/-
  The value of the result: what each buffer that matters holds at each boundary of the program, as the same
  function of the argument arrays that the reference computes for its corresponding value. The host stretches
  are read operation by operation; the four regions by what their pipelines leave: the two dense products are
  the host's products, the pooled sums are the host's segment sums, the head is the host's two affine layers.
-/
import proofs.«409256_j4844723109935_1_alg».proof.Proof.KI_Chain
import proofs.«409256_j4844723109935_1_alg».proof.Proof.KI_Stretch
import proofs.«409256_j4844723109935_1_alg».proof.Proof.KI_Val01
import proofs.«409256_j4844723109935_1_alg».proof.Proof.KI_Val3
import proofs.«409256_j4844723109935_1_alg».proof.Proof.KI_Arr2
import proofs.«409256_j4844723109935_1_alg».proof.Proof.KI_Val2
import proofs.«409256_j4844723109935_1_alg».proof.Proof.LibKeepdims
import proofs.«409256_j4844723109935_1_alg».proof.Proof.Gen.ReferenceIdeal.Read
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem Idealize.ShloMosaic.StableHlo
open Cert.ReferenceIdeal.Read

variable (m : (ℓ : Loc nD τ sig) → Buf (Elt Ideal) ℓ) (c : Dev nD)

/-! ## The argument arrays at the boundaries where they are read -/
theorem arg0_W3 : W3 m c (Proc.devRef .tc main_arg0) = (m ((c.tc : Thread nD τ).loc main_arg0)) :=
  (W3_of m c main_arg0 (by decide)).trans <| (W2_of m c main_arg0 (by decide)).trans <| (W1_of m c main_arg0 (by decide)).trans <| rfl
theorem arg4_W3 : W3 m c (Proc.devRef .tc main_arg4) = (m ((c.tc : Thread nD τ).loc main_arg4)) :=
  (W3_of m c main_arg4 (by decide)).trans <| (W2_of m c main_arg4 (by decide)).trans <| (W1_of m c main_arg4 (by decide)).trans <| rfl
theorem arg5_W4 : W4 m c (Proc.devRef .tc main_arg5) = (m ((c.tc : Thread nD τ).loc main_arg5)) :=
  (W4_keep m c main_arg5 (by decide)).trans <| (W3_of m c main_arg5 (by decide)).trans <| (W2_of m c main_arg5 (by decide)).trans <| (W1_of m c main_arg5 (by decide)).trans <| rfl
theorem arg6_W6 : W6 m c (Proc.devRef .tc main_arg6) = (m ((c.tc : Thread nD τ).loc main_arg6)) :=
  (W6_of m c main_arg6 (by decide)).trans <| (W5_of m c main_arg6 (by decide)).trans <| (W4_keep m c main_arg6 (by decide)).trans <| (W3_of m c main_arg6 (by decide)).trans <| (W2_of m c main_arg6 (by decide)).trans <| (W1_of m c main_arg6 (by decide)).trans <| rfl
theorem arg7_W7 : W7 m c (Proc.devRef .tc main_arg7) = (m ((c.tc : Thread nD τ).loc main_arg7)) :=
  (W7_keep m c main_arg7 (by decide)).trans <| (W6_of m c main_arg7 (by decide)).trans <| (W5_of m c main_arg7 (by decide)).trans <| (W4_keep m c main_arg7 (by decide)).trans <| (W3_of m c main_arg7 (by decide)).trans <| (W2_of m c main_arg7 (by decide)).trans <| (W1_of m c main_arg7 (by decide)).trans <| rfl
theorem arg3_W7 : W7 m c (Proc.devRef .tc main_arg3) = (m ((c.tc : Thread nD τ).loc main_arg3)) :=
  (W7_keep m c main_arg3 (by decide)).trans <| (W6_of m c main_arg3 (by decide)).trans <| (W5_of m c main_arg3 (by decide)).trans <| (W4_keep m c main_arg3 (by decide)).trans <| (W3_of m c main_arg3 (by decide)).trans <| (W2_of m c main_arg3 (by decide)).trans <| (W1_of m c main_arg3 (by decide)).trans <| rfl
theorem arg3_W9 : W9 m c (Proc.devRef .tc main_arg3) = (m ((c.tc : Thread nD τ).loc main_arg3)) :=
  (W9_keep m c main_arg3 (by decide)).trans <| (W8_of m c main_arg3 (by decide)).trans <| (W7_keep m c main_arg3 (by decide)).trans <| (W6_of m c main_arg3 (by decide)).trans <| (W5_of m c main_arg3 (by decide)).trans <| (W4_keep m c main_arg3 (by decide)).trans <| (W3_of m c main_arg3 (by decide)).trans <| (W2_of m c main_arg3 (by decide)).trans <| (W1_of m c main_arg3 (by decide)).trans <| rfl
theorem arg8_W9 : W9 m c (Proc.devRef .tc main_arg8) = (m ((c.tc : Thread nD τ).loc main_arg8)) :=
  (W9_keep m c main_arg8 (by decide)).trans <| (W8_of m c main_arg8 (by decide)).trans <| (W7_keep m c main_arg8 (by decide)).trans <| (W6_of m c main_arg8 (by decide)).trans <| (W5_of m c main_arg8 (by decide)).trans <| (W4_keep m c main_arg8 (by decide)).trans <| (W3_of m c main_arg8 (by decide)).trans <| (W2_of m c main_arg8 (by decide)).trans <| (W1_of m c main_arg8 (by decide)).trans <| rfl
theorem arg9_W9 : W9 m c (Proc.devRef .tc main_arg9) = (m ((c.tc : Thread nD τ).loc main_arg9)) :=
  (W9_keep m c main_arg9 (by decide)).trans <| (W8_of m c main_arg9 (by decide)).trans <| (W7_keep m c main_arg9 (by decide)).trans <| (W6_of m c main_arg9 (by decide)).trans <| (W5_of m c main_arg9 (by decide)).trans <| (W4_keep m c main_arg9 (by decide)).trans <| (W3_of m c main_arg9 (by decide)).trans <| (W2_of m c main_arg9 (by decide)).trans <| (W1_of m c main_arg9 (by decide)).trans <| rfl
theorem arg10_W9 : W9 m c (Proc.devRef .tc main_arg10) = (m ((c.tc : Thread nD τ).loc main_arg10)) :=
  (W9_keep m c main_arg10 (by decide)).trans <| (W8_of m c main_arg10 (by decide)).trans <| (W7_keep m c main_arg10 (by decide)).trans <| (W6_of m c main_arg10 (by decide)).trans <| (W5_of m c main_arg10 (by decide)).trans <| (W4_keep m c main_arg10 (by decide)).trans <| (W3_of m c main_arg10 (by decide)).trans <| (W2_of m c main_arg10 (by decide)).trans <| (W1_of m c main_arg10 (by decide)).trans <| rfl
theorem arg11_W9 : W9 m c (Proc.devRef .tc main_arg11) = (m ((c.tc : Thread nD τ).loc main_arg11)) :=
  (W9_keep m c main_arg11 (by decide)).trans <| (W8_of m c main_arg11 (by decide)).trans <| (W7_keep m c main_arg11 (by decide)).trans <| (W6_of m c main_arg11 (by decide)).trans <| (W5_of m c main_arg11 (by decide)).trans <| (W4_keep m c main_arg11 (by decide)).trans <| (W3_of m c main_arg11 (by decide)).trans <| (W2_of m c main_arg11 (by decide)).trans <| (W1_of m c main_arg11 (by decide)).trans <| rfl
theorem arg8_W10 : W10 m c (Proc.devRef .tc main_arg8) = (m ((c.tc : Thread nD τ).loc main_arg8)) :=
  (W10_of m c main_arg8 (by decide)).trans <| (W9_keep m c main_arg8 (by decide)).trans <| (W8_of m c main_arg8 (by decide)).trans <| (W7_keep m c main_arg8 (by decide)).trans <| (W6_of m c main_arg8 (by decide)).trans <| (W5_of m c main_arg8 (by decide)).trans <| (W4_keep m c main_arg8 (by decide)).trans <| (W3_of m c main_arg8 (by decide)).trans <| (W2_of m c main_arg8 (by decide)).trans <| (W1_of m c main_arg8 (by decide)).trans <| rfl
theorem arg10_W10 : W10 m c (Proc.devRef .tc main_arg10) = (m ((c.tc : Thread nD τ).loc main_arg10)) :=
  (W10_of m c main_arg10 (by decide)).trans <| (W9_keep m c main_arg10 (by decide)).trans <| (W8_of m c main_arg10 (by decide)).trans <| (W7_keep m c main_arg10 (by decide)).trans <| (W6_of m c main_arg10 (by decide)).trans <| (W5_of m c main_arg10 (by decide)).trans <| (W4_keep m c main_arg10 (by decide)).trans <| (W3_of m c main_arg10 (by decide)).trans <| (W2_of m c main_arg10 (by decide)).trans <| (W1_of m c main_arg10 (by decide)).trans <| rfl

/-! ## The edge lists, the weights, the degrees -/
theorem a_v5 : W1 m c (Proc.devRef .tc main_v5) = val_main_v6 (F := Ideal) (m ((c.tc : Thread nD τ).loc main_arg1)) := by
  show StableHlo.after hostOps0 (W0 m c) (Proc.devRef .tc main_v5) = _
  after_results
  rfl
theorem a_v6 : W1 m c (Proc.devRef .tc main_v6) = val_main_v7 (F := Ideal) (m ((c.tc : Thread nD τ).loc main_arg1)) := by
  show StableHlo.after hostOps0 (W0 m c) (Proc.devRef .tc main_v6) = _
  after_results
  rfl
theorem a_v8 : W1 m c (Proc.devRef .tc main_v8) = val_main_v9 (F := Ideal) (m ((c.tc : Thread nD τ).loc main_arg2)) := by
  show StableHlo.after hostOps0 (W0 m c) (Proc.devRef .tc main_v8) = _
  after_results
  rfl
theorem a_v13 : W1 m c (Proc.devRef .tc main_v13) = val_main_v14 (F := Ideal) (m ((c.tc : Thread nD τ).loc main_arg1)) (m ((c.tc : Thread nD τ).loc main_arg2)) := by
  show StableHlo.after hostOps0 (W0 m c) (Proc.devRef .tc main_v13) = _
  after_results
  rfl
theorem a_v14 : W1 m c (Proc.devRef .tc main_v14) = val_main_v15 (F := Ideal) (m ((c.tc : Thread nD τ).loc main_arg1)) (m ((c.tc : Thread nD τ).loc main_arg2)) := by
  show StableHlo.after hostOps0 (W0 m c) (Proc.devRef .tc main_v14) = _
  after_results
  rfl
theorem a_cst2 : W1 m c (Proc.devRef .tc main_cst_2) = val_main_cst_2 (F := Ideal) := by
  show StableHlo.after hostOps0 (W0 m c) (Proc.devRef .tc main_cst_2) = _
  after_results
  rfl

/-! ## The inverse square roots of the positive degrees -/
theorem b_v15 : W2 m c (Proc.devRef .tc main_v15) = val_main_v16 (F := Ideal) (m ((c.tc : Thread nD τ).loc main_arg1)) (m ((c.tc : Thread nD τ).loc main_arg2)) :=
  s_v15 (W1 m c) (m ((c.tc : Thread nD τ).loc main_arg1)) (m ((c.tc : Thread nD τ).loc main_arg2)) (a_v13 m c) (a_v14 m c) (a_cst2 m c)
theorem b_v5 : W2 m c (Proc.devRef .tc main_v5) = val_main_v6 (F := Ideal) (m ((c.tc : Thread nD τ).loc main_arg1)) :=
  (W2_of m c main_v5 (by decide)).trans <| a_v5 m c
theorem b_v6 : W2 m c (Proc.devRef .tc main_v6) = val_main_v7 (F := Ideal) (m ((c.tc : Thread nD τ).loc main_arg1)) :=
  (W2_of m c main_v6 (by decide)).trans <| a_v6 m c
theorem b_v8 : W2 m c (Proc.devRef .tc main_v8) = val_main_v9 (F := Ideal) (m ((c.tc : Thread nD τ).loc main_arg2)) :=
  (W2_of m c main_v8 (by decide)).trans <| a_v8 m c

/-! ## The edge normalisation -/
theorem c_v31 : W3 m c (Proc.devRef .tc main_v31) = val_main_v32 (F := Ideal) (m ((c.tc : Thread nD τ).loc main_arg1)) (m ((c.tc : Thread nD τ).loc main_arg2)) :=
  s_v31 (W2 m c) (m ((c.tc : Thread nD τ).loc main_arg1)) (m ((c.tc : Thread nD τ).loc main_arg2)) (b_v5 m c) (b_v6 m c) (b_v8 m c) (b_v15 m c)
theorem c_v5 : W3 m c (Proc.devRef .tc main_v5) = val_main_v6 (F := Ideal) (m ((c.tc : Thread nD τ).loc main_arg1)) :=
  (W3_of m c main_v5 (by decide)).trans <| b_v5 m c
theorem c_v6 : W3 m c (Proc.devRef .tc main_v6) = val_main_v7 (F := Ideal) (m ((c.tc : Thread nD τ).loc main_arg1)) :=
  (W3_of m c main_v6 (by decide)).trans <| b_v6 m c

/-! ## The first dense product -/
theorem d_v32 : W4 m c (Proc.devRef .tc main_v32) = val_main_v4 (F := Ideal) (m ((c.tc : Thread nD τ).loc main_arg0)) (m ((c.tc : Thread nD τ).loc main_arg4)) := by
  refine (W4_arr m c 2).trans ?_
  rw [final0 (V3 m) c]
  show Host.dotGeneral (F := Ideal) _ none (W3 m c (Proc.devRef .tc main_arg0)) (W3 m c (Proc.devRef .tc main_arg4)) = _
  rw [arg0_W3, arg4_W3]
  rfl
theorem d_v31 : W4 m c (Proc.devRef .tc main_v31) = val_main_v32 (F := Ideal) (m ((c.tc : Thread nD τ).loc main_arg1)) (m ((c.tc : Thread nD τ).loc main_arg2)) :=
  (W4_keep m c main_v31 (by decide)).trans <| c_v31 m c
theorem d_v5 : W4 m c (Proc.devRef .tc main_v5) = val_main_v6 (F := Ideal) (m ((c.tc : Thread nD τ).loc main_arg1)) :=
  (W4_keep m c main_v5 (by decide)).trans <| c_v5 m c
theorem d_v6 : W4 m c (Proc.devRef .tc main_v6) = val_main_v7 (F := Ideal) (m ((c.tc : Thread nD τ).loc main_arg1)) :=
  (W4_keep m c main_v6 (by decide)).trans <| c_v6 m c

/-! ## The first message passing, bias and rectifier -/
theorem e_v48 : W5 m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
  s_v48 (W4 m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (d_v31 m c) (d_v5 m c) (d_v6 m c) (d_v32 m c) (arg5_W4 m c)
theorem f_v49 : W6 m c (Proc.devRef .tc main_v49) = val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
  s_v49 (W5 m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (e_v48 m c)
theorem f_v31 : W6 m c (Proc.devRef .tc main_v31) = val_main_v32 (F := Ideal) (m ((c.tc : Thread nD τ).loc main_arg1)) (m ((c.tc : Thread nD τ).loc main_arg2)) :=
  (W6_of m c main_v31 (by decide)).trans <| (W5_of m c main_v31 (by decide)).trans <| d_v31 m c
theorem f_v5 : W6 m c (Proc.devRef .tc main_v5) = val_main_v6 (F := Ideal) (m ((c.tc : Thread nD τ).loc main_arg1)) :=
  (W6_of m c main_v5 (by decide)).trans <| (W5_of m c main_v5 (by decide)).trans <| d_v5 m c
theorem f_v6 : W6 m c (Proc.devRef .tc main_v6) = val_main_v7 (F := Ideal) (m ((c.tc : Thread nD τ).loc main_arg1)) :=
  (W6_of m c main_v6 (by decide)).trans <| (W5_of m c main_v6 (by decide)).trans <| d_v6 m c

/-! ## The second dense product -/
theorem g_v50 : W7 m c (Proc.devRef .tc main_v50) = val_main_v50 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (W7_arr m c 2).trans ?_
  rw [final1 (V6 m) c]
  show Host.dotGeneral (F := Ideal) _ none (W6 m c (Proc.devRef .tc main_v49)) (W6 m c (Proc.devRef .tc main_arg6)) = _
  rw [f_v49, arg6_W6]
  rfl
theorem g_v31 : W7 m c (Proc.devRef .tc main_v31) = val_main_v32 (F := Ideal) (m ((c.tc : Thread nD τ).loc main_arg1)) (m ((c.tc : Thread nD τ).loc main_arg2)) :=
  (W7_keep m c main_v31 (by decide)).trans <| f_v31 m c
theorem g_v5 : W7 m c (Proc.devRef .tc main_v5) = val_main_v6 (F := Ideal) (m ((c.tc : Thread nD τ).loc main_arg1)) :=
  (W7_keep m c main_v5 (by decide)).trans <| f_v5 m c
theorem g_v6 : W7 m c (Proc.devRef .tc main_v6) = val_main_v7 (F := Ideal) (m ((c.tc : Thread nD τ).loc main_arg1)) :=
  (W7_keep m c main_v6 (by decide)).trans <| f_v6 m c

/-! ## The second message passing and bias; the graph numbers as a column -/
theorem h_v66 : W8 m c (Proc.devRef .tc main_v66) = val_main_v94 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
  s_v66 (W7 m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (g_v31 m c) (g_v5 m c) (g_v6 m c) (g_v50 m c) (arg7_W7 m c)

/-- The graph numbers as a column: the reshape of the vector and the host's broadcast of it along a new trailing
    axis read the same entry at every position. -/
theorem h_v67 : W8 m c (Proc.devRef .tc main_v67) = val_main_v96 (F := Ideal) (m ((c.tc : Thread nD τ).loc main_arg3)) := by
  show StableHlo.after hostOps2 (W7 m c) (Proc.devRef .tc main_v67) = _
  after_results
  rw [arg3_W7]
  funext i
  obtain ⟨p, u, rfl⟩ : ∃ (p : Fin 50000) (u : Fin 1), i = ix2 p u := ⟨i 0, i 1, eq_ix2 i⟩
  unfold val_main_v96
  refine Eq.trans ?_ (broadcastInDim_apply _ _ _ _ (ix1 p) (fun ax => by match ax with | ⟨0, _⟩ => rfl)).symm
  show shapeCast S50000x1 (m ((c.tc : Thread nD τ).loc main_arg3)) shapeCasts_S50000_S50000x1 (ix2 p u) = _
  exact Cert.LibKeepdims.shapeCast_a_a1_apply _ _ p u

/-! ## The pooled sums -/
theorem i_v68 : W9 m c (Proc.devRef .tc main_v68) = val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W9_arr m c 2).trans ?_
  rw [final2_arr (V8 m) c]
  have hp := pool_final (val_main_v96 (F := Ideal) (m ((c.tc : Thread nD τ).loc main_arg3))) (W8 m c (Proc.devRef .tc main_v66)) (fun n hn => acc2 (V8 m) c n hn)
      (fun t => iblk2 (V8 m) c 0 t) (fun t => iblk2 (V8 m) c 1 t)
      (fun t r => (iblk2_0_apply (V8 m) c t r).trans (congrFun (h_v67 m c) _))
      (fun t r j => iblk2_1_apply (V8 m) c t r j)
      (acc2_zero (V8 m) c _) (fun n h => acc2_succ (V8 m) c n h)
  refine hp.trans ?_
  rw [h_v66]
  rfl

/-! ## The graph sizes and the means; the head's biases as rows -/
theorem j_v77 : W10 m c (Proc.devRef .tc main_v77) = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  s_v77 (W9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i_v68 m c) (arg3_W9 m c)

/-- The bias as a one-row matrix: the reshape of the vector and the host's broadcast of it along a new leading
    axis read the same entry at every position. -/
theorem j_v78 : W10 m c (Proc.devRef .tc main_v78) = val_main_v108 (F := Ideal) (m ((c.tc : Thread nD τ).loc main_arg9)) := by
  show StableHlo.after hostOps3 (W9 m c) (Proc.devRef .tc main_v78) = _
  after_results
  rw [arg9_W9]
  funext i
  obtain ⟨u, q, rfl⟩ : ∃ (u : Fin 1) (q : Fin 32), i = ix2 u q := ⟨i 0, i 1, eq_ix2 i⟩
  have hu : u.val = 0 := by omega
  unfold val_main_v108
  refine Eq.trans ?_ (broadcastInDim_apply _ _ _ _ (ix1 q) (fun ax => by match ax with | ⟨0, _⟩ => rfl)).symm
  show shapeCast S1x32 (m ((c.tc : Thread nD τ).loc main_arg9)) shapeCasts_S32_S1x32 (ix2 u q) = _
  exact shapeCast_apply _ _ _ (ix1 q) (by
    rw [Shape.rowMajor_val_two, Shape.rowMajor_val_one]
    show q.val = u.val * 32 + q.val
    rw [hu]; omega)

/-- The bias as a one-row matrix: the reshape of the vector and the host's broadcast of it along a new leading
    axis read the same entry at every position. -/
theorem j_v79 : W10 m c (Proc.devRef .tc main_v79) = val_main_v112 (F := Ideal) (m ((c.tc : Thread nD τ).loc main_arg11)) := by
  show StableHlo.after hostOps3 (W9 m c) (Proc.devRef .tc main_v79) = _
  after_results
  rw [arg11_W9]
  funext i
  obtain ⟨u, q, rfl⟩ : ∃ (u : Fin 1) (q : Fin 10), i = ix2 u q := ⟨i 0, i 1, eq_ix2 i⟩
  have hu : u.val = 0 := by omega
  unfold val_main_v112
  refine Eq.trans ?_ (broadcastInDim_apply _ _ _ _ (ix1 q) (fun ax => by match ax with | ⟨0, _⟩ => rfl)).symm
  show shapeCast S1x10 (m ((c.tc : Thread nD τ).loc main_arg11)) shapeCasts_S10_S1x10 (ix2 u q) = _
  exact shapeCast_apply _ _ _ (ix1 q) (by
    rw [Shape.rowMajor_val_two, Shape.rowMajor_val_one]
    show q.val = u.val * 10 + q.val
    rw [hu]; omega)

/-! ## The result -/
theorem k_v80 : W11 m c (Proc.devRef .tc main_v80)
    = val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W11_arr m c 5).trans ?_
  rw [final3 (V10 m) c]
  dsimp only [V10]
  rw [j_v77, j_v78, j_v79, arg8_W10, arg10_W10]
  rfl

end Cert.KernelIdeal.Hand

end
-- ==== Proof.lean ====
/-
  A two-layer graph convolution with mean pooling and a two-layer head, as four kernel launches with host
  arithmetic between them, against the same network written with whole-array operations.

  The kernel program computes, in order: the edge normalisation (degrees by a scatter of the edge weights, their
  inverse square roots where positive, the product of the two end points' factors with the weight) on the host;
  x · W1 in the first launch, row tile by row tile; the first message passing (a scatter of the normalised
  neighbour rows), bias and rectifier on the host; h · W2 in the second launch; the second message passing and
  bias on the host; the sums of the node rows by graph number in the third launch, accumulated over 25 row tiles
  as products with the tile's one-hot membership matrix; the graph sizes and the means on the host; and the head
  (p · LW1 + Lb1) · LW2 + Lb2 in the last launch. The reference computes the same values with the same host
  operations and, where the kernel launches, one whole-array product or scatter. Over the extended reals a tile
  of a product is the product of the tiles, a matrix product into a zero accumulator is the host's product, and a
  sum of one-hot products over the row tiles is the scatter of the rows: so every value the kernel program holds
  at a boundary is the reference's corresponding value as a function of the argument arrays, and the results agree.
  No law used needs finiteness, so the precondition is not opened.

  The frames of both kernel programs: the run is the fold of the program's items over the contents of the core's
  buffers, each launch certified by its pipeline's proof data; no item writes an argument array. The reference's
  frame is its run with the result dropped.
-/
import proofs.«409256_j4844723109935_1_alg».proof.Defs
import proofs.«409256_j4844723109935_1_alg».proof.Proof.Gen.Kernel
import proofs.«409256_j4844723109935_1_alg».proof.Proof.Gen.KernelIdeal
import proofs.«409256_j4844723109935_1_alg».proof.Proof.Gen.ReferenceIdeal
import proofs.«409256_j4844723109935_1_alg».proof.Proof.Gen.Pre_finite_inputs
import proofs.«409256_j4844723109935_1_alg».proof.Proof.Gen.ReferenceIdeal.Run
import proofs.«409256_j4844723109935_1_alg».proof.Proof.Gen.ReferenceIdeal.Read
import proofs.«409256_j4844723109935_1_alg».proof.Proof.KB_Frame
import proofs.«409256_j4844723109935_1_alg».proof.Proof.KI_Frame
import proofs.«409256_j4844723109935_1_alg».proof.Proof.KI_Value
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Hand.frame_all m ρ

/-- The idealized program runs to the end and leaves its arguments unchanged. -/
theorem frame_ki : Cert.frame_KernelIdeal := fun m ρ _ => Cert.KernelIdeal.Hand.frame_all m ρ

/-- The reference runs to the end and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the same result: the kernel
    program's result buffer holds the last launch's output array, which is the reference's last stage as a
    function of the argument arrays; the reference's run ends at that stage of its own, equal, arguments. -/
theorem algebraic : Cert.algebraic_KernelIdeal_ReferenceIdeal := by
  intro m ρ m' ρ' _ hagree
  refine ⟨fun c => Cert.KernelIdeal.Hand.W11 m c (Proc.devRef .tc Cert.KernelIdeal.main_v80),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v114_eq, h0, h1, h2, h3, h4, h5, h6, h7, h8, h9, h10, h11]
  exact (Cert.KernelIdeal.Hand.k_v80 m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
